-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S16x4096 : Shape := ⟨2, ![16, 4096]⟩
abbrev S_ : Shape := ⟨0, ![]⟩
abbrev S16 : Shape := ⟨1, ![16]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S16x4096 : S_.BroadcastsInDim S16x4096 (![] : Fin 0 → Fin S16x4096.rank)
  reducesTo_S16x4096_S_d0_1 : S16x4096.ReducesTo [0, 1] S_
  reducesTo_S16x4096_S16_d1 : S16x4096.ReducesTo [1] S16
  bcast_S_S16 : S_.BroadcastsInDim S16 (![] : Fin 0 → Fin S16.rank)
  reducesTo_S16_S_d0 : S16.ReducesTo [0] S_

variable [Facts]

def fn {F : FTy → Type} [FloatOps F] (main_arg0 : FVec F S16x4096x1024 .f32) (main_arg1 : IVec S16x4096 32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_c_0 : IVec S_ 32 := constantI S_ 32 0#32
  let main_v4 : IVec S16x4096 32 := broadcastInDim S16x4096 ![] bcast_S_S16x4096 main_c_0
  let main_v5 : IVec S16x4096 1 := cmpi .eq main_arg1 main_v4
  let main_c_1 : IVec S_ 32 := constantI S_ 32 1#32
  let main_v6 : IVec S16x4096 32 := broadcastInDim S16x4096 ![] bcast_S_S16x4096 main_c_1
  let main_v7 : IVec S16x4096 1 := cmpi .eq main_arg1 main_v6
  let main_v8 : IVec S16x4096 1 := ori main_v5 main_v7
  let main_c_2 : IVec S_ 1 := constantI S_ 1 1#1
  let main_v9 : IVec S_ 1 := (fun x v => Host.reduce IntOp.andi x v reducesTo_S16x4096_S_d0_1 h_S_) main_v8 main_c_2
  let main_v10 : IVec S_ 1 := andi main_v3 main_v9
  let main_c_3 : IVec S_ 32 := constantI S_ 32 0#32
  let main_v11 : IVec S16 32 := (fun x v => Host.reduce IntOp.addi x v reducesTo_S16x4096_S16_d1 h_S_) main_arg1 main_c_3
  let main_c_4 : IVec S_ 32 := constantI S_ 32 1#32
  let main_v12 : IVec S16 32 := broadcastInDim S16 ![] bcast_S_S16 main_c_4
  let main_v13 : IVec S16 1 := cmpi .sge main_v11 main_v12
  let main_c_5 : IVec S_ 1 := constantI S_ 1 1#1
  let main_v14 : IVec S_ 1 := (fun x v => Host.reduce IntOp.andi x v reducesTo_S16_S_d0 h_S_) main_v13 main_c_5
  let main_v15 : IVec S_ 1 := andi main_v10 main_v14
  main_v15
-- ==== Kernel.lean ====
abbrev S16x4096x1024 : Shape := ⟨3, ![16, 4096, 1024]⟩
abbrev S16x4096 : Shape := ⟨2, ![16, 4096]⟩
abbrev S_ : Shape := ⟨0, ![]⟩
abbrev S16 : Shape := ⟨1, ![16]⟩
abbrev S16x1024 : Shape := ⟨2, ![16, 1024]⟩
abbrev S1 : Shape := ⟨1, ![1]⟩
abbrev S1x1024 : Shape := ⟨2, ![1, 1024]⟩
abbrev S1x1x1024 : Shape := ⟨3, ![1, 1, 1024]⟩

abbrev nBuf : Space → Nat
  | .hbm => 15
  | .vmem => 2
  | .smem => 1
  | _ => 0

abbrev bufTy : (tb : Table) → Fin (tcTables nBuf tb) → BufTy
  | .hbm, ⟨0, _⟩ => ⟨S16x4096x1024, .f32⟩
  | .hbm, ⟨1, _⟩ => ⟨S16x4096, .i32⟩
  | .hbm, ⟨2, _⟩ => ⟨S_, .i32⟩
  | .hbm, ⟨3, _⟩ => ⟨S16, .i32⟩
  | .hbm, ⟨4, _⟩ => ⟨S_, .i32⟩
  | .hbm, ⟨5, _⟩ => ⟨S16, .i32⟩
  | .hbm, ⟨6, _⟩ => ⟨S16, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S_, .i32⟩
  | .hbm, ⟨13, _⟩ => ⟨S16, .i32⟩
  | .hbm, ⟨14, _⟩ => ⟨S16x1024, .f32⟩
  | .local _ .vmem, ⟨0, _⟩ => ⟨S16x1024, .f32⟩
  | .local _ .vmem, ⟨1, _⟩ => ⟨S16x1024, .f32⟩
  | .local _ .smem, ⟨0, _⟩ => ⟨S16, .i32⟩
  | _, _ => ⟨S16x4096x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v3 : Ref sig .tc := ⟨.smem, 0, rfl⟩
abbrev cc0_stg0_0 : Ref sig .tc := ⟨.vmem, 0, rfl⟩
abbrev cc0_scratch0 : Ref sig .tc := ⟨.vmem, 1, rfl⟩
abbrev cc0_sem0_0 : DmaSem sig := 0

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 3 → Nat :=
  let c0_i32 : BitVec 32 := 0#32
  let c0_i32_3 : BitVec 32 := 0#32
  ![0, v0.toNat, 0]

def k0_off2 (v6 : BitVec 32) : Fin 3 → Nat :=
  let c1_i32 : BitVec 32 := 1#32
  let c0_i32_7 : BitVec 32 := 0#32
  ![1, v6.toNat, 0]

def k0_off3 (v12 : BitVec 32) : Fin 3 → Nat :=
  let c2_i32 : BitVec 32 := 2#32
  let c0_i32_11 : BitVec 32 := 0#32
  ![2, v12.toNat, 0]

def k0_off4 (v18 : BitVec 32) : Fin 3 → Nat :=
  let c3_i32 : BitVec 32 := 3#32
  let c0_i32_15 : BitVec 32 := 0#32
  ![3, v18.toNat, 0]

def k0_off5 (v24 : BitVec 32) : Fin 3 → Nat :=
  let c4_i32 : BitVec 32 := 4#32
  let c0_i32_19 : BitVec 32 := 0#32
  ![4, v24.toNat, 0]

def k0_off6 (v30 : BitVec 32) : Fin 3 → Nat :=
  let c5_i32 : BitVec 32 := 5#32
  let c0_i32_23 : BitVec 32 := 0#32
  ![5, v30.toNat, 0]

def k0_off7 (v36 : BitVec 32) : Fin 3 → Nat :=
  let c6_i32 : BitVec 32 := 6#32
  let c0_i32_27 : BitVec 32 := 0#32
  ![6, v36.toNat, 0]

def k0_off8 (v42 : BitVec 32) : Fin 3 → Nat :=
  let c7_i32 : BitVec 32 := 7#32
  let c0_i32_31 : BitVec 32 := 0#32
  ![7, v42.toNat, 0]

def k0_off9 (v48 : BitVec 32) : Fin 3 → Nat :=
  let c8_i32 : BitVec 32 := 8#32
  let c0_i32_35 : BitVec 32 := 0#32
  ![8, v48.toNat, 0]

def k0_off10 (v54 : BitVec 32) : Fin 3 → Nat :=
  let c9_i32 : BitVec 32 := 9#32
  let c0_i32_39 : BitVec 32 := 0#32
  ![9, v54.toNat, 0]

def k0_off11 (v60 : BitVec 32) : Fin 3 → Nat :=
  let c10_i32 : BitVec 32 := 10#32
  let c0_i32_43 : BitVec 32 := 0#32
  ![10, v60.toNat, 0]

def k0_off12 (v66 : BitVec 32) : Fin 3 → Nat :=
  let c11_i32 : BitVec 32 := 11#32
  let c0_i32_47 : BitVec 32 := 0#32
  ![11, v66.toNat, 0]

def k0_off13 (v72 : BitVec 32) : Fin 3 → Nat :=
  let c12_i32 : BitVec 32 := 12#32
  let c0_i32_51 : BitVec 32 := 0#32
  ![12, v72.toNat, 0]

def k0_off14 (v78 : BitVec 32) : Fin 3 → Nat :=
  let c13_i32 : BitVec 32 := 13#32
  let c0_i32_55 : BitVec 32 := 0#32
  ![13, v78.toNat, 0]

def k0_off15 (v84 : BitVec 32) : Fin 3 → Nat :=
  let c14_i32 : BitVec 32 := 14#32
  let c0_i32_59 : BitVec 32 := 0#32
  ![14, v84.toNat, 0]

def k0_off16 (v90 : BitVec 32) : Fin 3 → Nat :=
  let c15_i32 : BitVec 32 := 15#32
  let c0_i32_63 : BitVec 32 := 0#32
  ![15, v90.toNat, 0]

def k0_chk16 (v90 : BitVec 32) : Prop :=
  (∀ a, (k0_off16 v90) a + S1x1x1024.size a ≤ S16x4096x1024.size a)
instance k0_chk16.dec : ∀ (v90 : BitVec 32), Decidable (k0_chk16 v90) := fun v90 => decidable_of_iff' _ (Iff.of_eq (k0_chk16.eq_1 v90))
theorem k0_off16_inb : ∀ (v90 : BitVec 32) (k0_hw16 : k0_chk16 v90), ∀ a, (k0_off16 v90) a + S1x1x1024.size a ≤ S16x4096x1024.size a := fun v90 k0_hw16 => k0_hw16

def k0_off17 (v0 : BitVec 32) : Fin 3 → Nat :=
  let c0_i32_64 : BitVec 32 := 0#32
  let c0_i32_68 : BitVec 32 := 0#32
  ![0, v0.toNat, 0]

def k0_chk1 (v0 : BitVec 32) : Prop :=
  (∀ a, (k0_off1 v0) a + S1x1x1024.size a ≤ S16x4096x1024.size a) ∧
  (∀ a, (k0_off17 v0) a + S1x1x1024.size a ≤ S16x4096x1024.size a)
instance k0_chk1.dec : ∀ (v0 : BitVec 32), Decidable (k0_chk1 v0) := fun v0 => decidable_of_iff' _ (Iff.of_eq (k0_chk1.eq_1 v0))
theorem k0_off1_inb : ∀ (v0 : BitVec 32) (k0_hw1 : k0_chk1 v0), ∀ a, (k0_off1 v0) a + S1x1x1024.size a ≤ S16x4096x1024.size a := fun v0 k0_hw1 => k0_hw1.1
theorem k0_off17_inb : ∀ (v0 : BitVec 32) (k0_hw1 : k0_chk1 v0), ∀ a, (k0_off17 v0) a + S1x1x1024.size a ≤ S16x4096x1024.size a := fun v0 k0_hw1 => k0_hw1.2

def k0_off18 (v6 : BitVec 32) : Fin 3 → Nat :=
  let c1_i32_69 : BitVec 32 := 1#32
  let c0_i32_73 : BitVec 32 := 0#32
  ![1, v6.toNat, 0]

def k0_chk2 (v6 : BitVec 32) : Prop :=
  (∀ a, (k0_off2 v6) a + S1x1x1024.size a ≤ S16x4096x1024.size a) ∧
  (∀ a, (k0_off18 v6) a + S1x1x1024.size a ≤ S16x4096x1024.size a)
instance k0_chk2.dec : ∀ (v6 : BitVec 32), Decidable (k0_chk2 v6) := fun v6 => decidable_of_iff' _ (Iff.of_eq (k0_chk2.eq_1 v6))
theorem k0_off2_inb : ∀ (v6 : BitVec 32) (k0_hw2 : k0_chk2 v6), ∀ a, (k0_off2 v6) a + S1x1x1024.size a ≤ S16x4096x1024.size a := fun v6 k0_hw2 => k0_hw2.1
theorem k0_off18_inb : ∀ (v6 : BitVec 32) (k0_hw2 : k0_chk2 v6), ∀ a, (k0_off18 v6) a + S1x1x1024.size a ≤ S16x4096x1024.size a := fun v6 k0_hw2 => k0_hw2.2

def k0_off19 (v12 : BitVec 32) : Fin 3 → Nat :=
  let c2_i32_74 : BitVec 32 := 2#32
  let c0_i32_78 : BitVec 32 := 0#32
  ![2, v12.toNat, 0]

def k0_chk3 (v12 : BitVec 32) : Prop :=
  (∀ a, (k0_off3 v12) a + S1x1x1024.size a ≤ S16x4096x1024.size a) ∧
  (∀ a, (k0_off19 v12) a + S1x1x1024.size a ≤ S16x4096x1024.size a)
instance k0_chk3.dec : ∀ (v12 : BitVec 32), Decidable (k0_chk3 v12) := fun v12 => decidable_of_iff' _ (Iff.of_eq (k0_chk3.eq_1 v12))
theorem k0_off3_inb : ∀ (v12 : BitVec 32) (k0_hw3 : k0_chk3 v12), ∀ a, (k0_off3 v12) a + S1x1x1024.size a ≤ S16x4096x1024.size a := fun v12 k0_hw3 => k0_hw3.1
theorem k0_off19_inb : ∀ (v12 : BitVec 32) (k0_hw3 : k0_chk3 v12), ∀ a, (k0_off19 v12) a + S1x1x1024.size a ≤ S16x4096x1024.size a := fun v12 k0_hw3 => k0_hw3.2

def k0_off20 (v18 : BitVec 32) : Fin 3 → Nat :=
  let c3_i32_79 : BitVec 32 := 3#32
  let c0_i32_83 : BitVec 32 := 0#32
  ![3, v18.toNat, 0]

def k0_chk4 (v18 : BitVec 32) : Prop :=
  (∀ a, (k0_off4 v18) a + S1x1x1024.size a ≤ S16x4096x1024.size a) ∧
  (∀ a, (k0_off20 v18) a + S1x1x1024.size a ≤ S16x4096x1024.size a)
instance k0_chk4.dec : ∀ (v18 : BitVec 32), Decidable (k0_chk4 v18) := fun v18 => decidable_of_iff' _ (Iff.of_eq (k0_chk4.eq_1 v18))
theorem k0_off4_inb : ∀ (v18 : BitVec 32) (k0_hw4 : k0_chk4 v18), ∀ a, (k0_off4 v18) a + S1x1x1024.size a ≤ S16x4096x1024.size a := fun v18 k0_hw4 => k0_hw4.1
theorem k0_off20_inb : ∀ (v18 : BitVec 32) (k0_hw4 : k0_chk4 v18), ∀ a, (k0_off20 v18) a + S1x1x1024.size a ≤ S16x4096x1024.size a := fun v18 k0_hw4 => k0_hw4.2

def k0_off21 (v24 : BitVec 32) : Fin 3 → Nat :=
  let c4_i32_84 : BitVec 32 := 4#32
  let c0_i32_88 : BitVec 32 := 0#32
  ![4, v24.toNat, 0]

def k0_chk5 (v24 : BitVec 32) : Prop :=
  (∀ a, (k0_off5 v24) a + S1x1x1024.size a ≤ S16x4096x1024.size a) ∧
  (∀ a, (k0_off21 v24) a + S1x1x1024.size a ≤ S16x4096x1024.size a)
instance k0_chk5.dec : ∀ (v24 : BitVec 32), Decidable (k0_chk5 v24) := fun v24 => decidable_of_iff' _ (Iff.of_eq (k0_chk5.eq_1 v24))
theorem k0_off5_inb : ∀ (v24 : BitVec 32) (k0_hw5 : k0_chk5 v24), ∀ a, (k0_off5 v24) a + S1x1x1024.size a ≤ S16x4096x1024.size a := fun v24 k0_hw5 => k0_hw5.1
theorem k0_off21_inb : ∀ (v24 : BitVec 32) (k0_hw5 : k0_chk5 v24), ∀ a, (k0_off21 v24) a + S1x1x1024.size a ≤ S16x4096x1024.size a := fun v24 k0_hw5 => k0_hw5.2

def k0_off22 (v30 : BitVec 32) : Fin 3 → Nat :=
  let c5_i32_89 : BitVec 32 := 5#32
  let c0_i32_93 : BitVec 32 := 0#32
  ![5, v30.toNat, 0]

def k0_chk6 (v30 : BitVec 32) : Prop :=
  (∀ a, (k0_off6 v30) a + S1x1x1024.size a ≤ S16x4096x1024.size a) ∧
  (∀ a, (k0_off22 v30) a + S1x1x1024.size a ≤ S16x4096x1024.size a)
instance k0_chk6.dec : ∀ (v30 : BitVec 32), Decidable (k0_chk6 v30) := fun v30 => decidable_of_iff' _ (Iff.of_eq (k0_chk6.eq_1 v30))
theorem k0_off6_inb : ∀ (v30 : BitVec 32) (k0_hw6 : k0_chk6 v30), ∀ a, (k0_off6 v30) a + S1x1x1024.size a ≤ S16x4096x1024.size a := fun v30 k0_hw6 => k0_hw6.1
theorem k0_off22_inb : ∀ (v30 : BitVec 32) (k0_hw6 : k0_chk6 v30), ∀ a, (k0_off22 v30) a + S1x1x1024.size a ≤ S16x4096x1024.size a := fun v30 k0_hw6 => k0_hw6.2

def k0_off23 (v36 : BitVec 32) : Fin 3 → Nat :=
  let c6_i32_94 : BitVec 32 := 6#32
  let c0_i32_98 : BitVec 32 := 0#32
  ![6, v36.toNat, 0]

def k0_chk7 (v36 : BitVec 32) : Prop :=
  (∀ a, (k0_off7 v36) a + S1x1x1024.size a ≤ S16x4096x1024.size a) ∧
  (∀ a, (k0_off23 v36) a + S1x1x1024.size a ≤ S16x4096x1024.size a)
instance k0_chk7.dec : ∀ (v36 : BitVec 32), Decidable (k0_chk7 v36) := fun v36 => decidable_of_iff' _ (Iff.of_eq (k0_chk7.eq_1 v36))
theorem k0_off7_inb : ∀ (v36 : BitVec 32) (k0_hw7 : k0_chk7 v36), ∀ a, (k0_off7 v36) a + S1x1x1024.size a ≤ S16x4096x1024.size a := fun v36 k0_hw7 => k0_hw7.1
theorem k0_off23_inb : ∀ (v36 : BitVec 32) (k0_hw7 : k0_chk7 v36), ∀ a, (k0_off23 v36) a + S1x1x1024.size a ≤ S16x4096x1024.size a := fun v36 k0_hw7 => k0_hw7.2

def k0_off24 (v42 : BitVec 32) : Fin 3 → Nat :=
  let c7_i32_99 : BitVec 32 := 7#32
  let c0_i32_103 : BitVec 32 := 0#32
  ![7, v42.toNat, 0]

def k0_chk8 (v42 : BitVec 32) : Prop :=
  (∀ a, (k0_off8 v42) a + S1x1x1024.size a ≤ S16x4096x1024.size a) ∧
  (∀ a, (k0_off24 v42) a + S1x1x1024.size a ≤ S16x4096x1024.size a)
instance k0_chk8.dec : ∀ (v42 : BitVec 32), Decidable (k0_chk8 v42) := fun v42 => decidable_of_iff' _ (Iff.of_eq (k0_chk8.eq_1 v42))
theorem k0_off8_inb : ∀ (v42 : BitVec 32) (k0_hw8 : k0_chk8 v42), ∀ a, (k0_off8 v42) a + S1x1x1024.size a ≤ S16x4096x1024.size a := fun v42 k0_hw8 => k0_hw8.1
theorem k0_off24_inb : ∀ (v42 : BitVec 32) (k0_hw8 : k0_chk8 v42), ∀ a, (k0_off24 v42) a + S1x1x1024.size a ≤ S16x4096x1024.size a := fun v42 k0_hw8 => k0_hw8.2

def k0_off25 (v48 : BitVec 32) : Fin 3 → Nat :=
  let c8_i32_104 : BitVec 32 := 8#32
  let c0_i32_108 : BitVec 32 := 0#32
  ![8, v48.toNat, 0]

def k0_chk9 (v48 : BitVec 32) : Prop :=
  (∀ a, (k0_off9 v48) a + S1x1x1024.size a ≤ S16x4096x1024.size a) ∧
  (∀ a, (k0_off25 v48) a + S1x1x1024.size a ≤ S16x4096x1024.size a)
instance k0_chk9.dec : ∀ (v48 : BitVec 32), Decidable (k0_chk9 v48) := fun v48 => decidable_of_iff' _ (Iff.of_eq (k0_chk9.eq_1 v48))
theorem k0_off9_inb : ∀ (v48 : BitVec 32) (k0_hw9 : k0_chk9 v48), ∀ a, (k0_off9 v48) a + S1x1x1024.size a ≤ S16x4096x1024.size a := fun v48 k0_hw9 => k0_hw9.1
theorem k0_off25_inb : ∀ (v48 : BitVec 32) (k0_hw9 : k0_chk9 v48), ∀ a, (k0_off25 v48) a + S1x1x1024.size a ≤ S16x4096x1024.size a := fun v48 k0_hw9 => k0_hw9.2

def k0_off26 (v54 : BitVec 32) : Fin 3 → Nat :=
  let c9_i32_109 : BitVec 32 := 9#32
  let c0_i32_113 : BitVec 32 := 0#32
  ![9, v54.toNat, 0]

def k0_chk10 (v54 : BitVec 32) : Prop :=
  (∀ a, (k0_off10 v54) a + S1x1x1024.size a ≤ S16x4096x1024.size a) ∧
  (∀ a, (k0_off26 v54) a + S1x1x1024.size a ≤ S16x4096x1024.size a)
instance k0_chk10.dec : ∀ (v54 : BitVec 32), Decidable (k0_chk10 v54) := fun v54 => decidable_of_iff' _ (Iff.of_eq (k0_chk10.eq_1 v54))
theorem k0_off10_inb : ∀ (v54 : BitVec 32) (k0_hw10 : k0_chk10 v54), ∀ a, (k0_off10 v54) a + S1x1x1024.size a ≤ S16x4096x1024.size a := fun v54 k0_hw10 => k0_hw10.1
theorem k0_off26_inb : ∀ (v54 : BitVec 32) (k0_hw10 : k0_chk10 v54), ∀ a, (k0_off26 v54) a + S1x1x1024.size a ≤ S16x4096x1024.size a := fun v54 k0_hw10 => k0_hw10.2

def k0_off27 (v60 : BitVec 32) : Fin 3 → Nat :=
  let c10_i32_114 : BitVec 32 := 10#32
  let c0_i32_118 : BitVec 32 := 0#32
  ![10, v60.toNat, 0]

def k0_chk11 (v60 : BitVec 32) : Prop :=
  (∀ a, (k0_off11 v60) a + S1x1x1024.size a ≤ S16x4096x1024.size a) ∧
  (∀ a, (k0_off27 v60) a + S1x1x1024.size a ≤ S16x4096x1024.size a)
instance k0_chk11.dec : ∀ (v60 : BitVec 32), Decidable (k0_chk11 v60) := fun v60 => decidable_of_iff' _ (Iff.of_eq (k0_chk11.eq_1 v60))
theorem k0_off11_inb : ∀ (v60 : BitVec 32) (k0_hw11 : k0_chk11 v60), ∀ a, (k0_off11 v60) a + S1x1x1024.size a ≤ S16x4096x1024.size a := fun v60 k0_hw11 => k0_hw11.1
theorem k0_off27_inb : ∀ (v60 : BitVec 32) (k0_hw11 : k0_chk11 v60), ∀ a, (k0_off27 v60) a + S1x1x1024.size a ≤ S16x4096x1024.size a := fun v60 k0_hw11 => k0_hw11.2

def k0_off28 (v66 : BitVec 32) : Fin 3 → Nat :=
  let c11_i32_119 : BitVec 32 := 11#32
  let c0_i32_123 : BitVec 32 := 0#32
  ![11, v66.toNat, 0]

def k0_chk12 (v66 : BitVec 32) : Prop :=
  (∀ a, (k0_off12 v66) a + S1x1x1024.size a ≤ S16x4096x1024.size a) ∧
  (∀ a, (k0_off28 v66) a + S1x1x1024.size a ≤ S16x4096x1024.size a)
instance k0_chk12.dec : ∀ (v66 : BitVec 32), Decidable (k0_chk12 v66) := fun v66 => decidable_of_iff' _ (Iff.of_eq (k0_chk12.eq_1 v66))
theorem k0_off12_inb : ∀ (v66 : BitVec 32) (k0_hw12 : k0_chk12 v66), ∀ a, (k0_off12 v66) a + S1x1x1024.size a ≤ S16x4096x1024.size a := fun v66 k0_hw12 => k0_hw12.1
theorem k0_off28_inb : ∀ (v66 : BitVec 32) (k0_hw12 : k0_chk12 v66), ∀ a, (k0_off28 v66) a + S1x1x1024.size a ≤ S16x4096x1024.size a := fun v66 k0_hw12 => k0_hw12.2

def k0_off29 (v72 : BitVec 32) : Fin 3 → Nat :=
  let c12_i32_124 : BitVec 32 := 12#32
  let c0_i32_128 : BitVec 32 := 0#32
  ![12, v72.toNat, 0]

def k0_chk13 (v72 : BitVec 32) : Prop :=
  (∀ a, (k0_off13 v72) a + S1x1x1024.size a ≤ S16x4096x1024.size a) ∧
  (∀ a, (k0_off29 v72) a + S1x1x1024.size a ≤ S16x4096x1024.size a)
instance k0_chk13.dec : ∀ (v72 : BitVec 32), Decidable (k0_chk13 v72) := fun v72 => decidable_of_iff' _ (Iff.of_eq (k0_chk13.eq_1 v72))
theorem k0_off13_inb : ∀ (v72 : BitVec 32) (k0_hw13 : k0_chk13 v72), ∀ a, (k0_off13 v72) a + S1x1x1024.size a ≤ S16x4096x1024.size a := fun v72 k0_hw13 => k0_hw13.1
theorem k0_off29_inb : ∀ (v72 : BitVec 32) (k0_hw13 : k0_chk13 v72), ∀ a, (k0_off29 v72) a + S1x1x1024.size a ≤ S16x4096x1024.size a := fun v72 k0_hw13 => k0_hw13.2

def k0_off30 (v78 : BitVec 32) : Fin 3 → Nat :=
  let c13_i32_129 : BitVec 32 := 13#32
  let c0_i32_133 : BitVec 32 := 0#32
  ![13, v78.toNat, 0]

def k0_chk14 (v78 : BitVec 32) : Prop :=
  (∀ a, (k0_off14 v78) a + S1x1x1024.size a ≤ S16x4096x1024.size a) ∧
  (∀ a, (k0_off30 v78) a + S1x1x1024.size a ≤ S16x4096x1024.size a)
instance k0_chk14.dec : ∀ (v78 : BitVec 32), Decidable (k0_chk14 v78) := fun v78 => decidable_of_iff' _ (Iff.of_eq (k0_chk14.eq_1 v78))
theorem k0_off14_inb : ∀ (v78 : BitVec 32) (k0_hw14 : k0_chk14 v78), ∀ a, (k0_off14 v78) a + S1x1x1024.size a ≤ S16x4096x1024.size a := fun v78 k0_hw14 => k0_hw14.1
theorem k0_off30_inb : ∀ (v78 : BitVec 32) (k0_hw14 : k0_chk14 v78), ∀ a, (k0_off30 v78) a + S1x1x1024.size a ≤ S16x4096x1024.size a := fun v78 k0_hw14 => k0_hw14.2

def k0_off31 (v84 : BitVec 32) : Fin 3 → Nat :=
  let c14_i32_134 : BitVec 32 := 14#32
  let c0_i32_138 : BitVec 32 := 0#32
  ![14, v84.toNat, 0]

def k0_chk15 (v84 : BitVec 32) : Prop :=
  (∀ a, (k0_off15 v84) a + S1x1x1024.size a ≤ S16x4096x1024.size a) ∧
  (∀ a, (k0_off31 v84) a + S1x1x1024.size a ≤ S16x4096x1024.size a)
instance k0_chk15.dec : ∀ (v84 : BitVec 32), Decidable (k0_chk15 v84) := fun v84 => decidable_of_iff' _ (Iff.of_eq (k0_chk15.eq_1 v84))
theorem k0_off15_inb : ∀ (v84 : BitVec 32) (k0_hw15 : k0_chk15 v84), ∀ a, (k0_off15 v84) a + S1x1x1024.size a ≤ S16x4096x1024.size a := fun v84 k0_hw15 => k0_hw15.1
theorem k0_off31_inb : ∀ (v84 : BitVec 32) (k0_hw15 : k0_chk15 v84), ∀ a, (k0_off31 v84) a + S1x1x1024.size a ≤ S16x4096x1024.size a := fun v84 k0_hw15 => k0_hw15.2

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

class Facts₀ : Prop where
  reducesTo_S16x4096_S16_d1 : S16x4096.ReducesTo [1] S16
  h_S_ : 0 < S_.numel
  bcast_S_S16 : S_.BroadcastsInDim S16 (![] : Fin 0 → Fin S16.rank)
  inb_S16_S1_0 : ∀ a, (![0] : Fin 1 → Nat) a + S1.size a ≤ S16.size a
  numel1_S1 : S1.numel = 1
  squeezes_S1_S_ : S1.Squeezes S_
  inb_S16x1024_S1x1024_0_0 : ∀ a, (![0, 0] : Fin 2 → Nat) a + S1x1024.size a ≤ S16x1024.size a
  squeezes_S1x1x1024_S1x1024 : S1x1x1024.Squeezes S1x1024
  inb_S16_S1_1 : ∀ a, (![1] : Fin 1 → Nat) a + S1.size a ≤ S16.size a
  inb_S16x1024_S1x1024_1_0 : ∀ a, (![1, 0] : Fin 2 → Nat) a + S1x1024.size a ≤ S16x1024.size a
  inb_S16_S1_2 : ∀ a, (![2] : Fin 1 → Nat) a + S1.size a ≤ S16.size a
  inb_S16x1024_S1x1024_2_0 : ∀ a, (![2, 0] : Fin 2 → Nat) a + S1x1024.size a ≤ S16x1024.size a
  inb_S16_S1_3 : ∀ a, (![3] : Fin 1 → Nat) a + S1.size a ≤ S16.size a
  inb_S16x1024_S1x1024_3_0 : ∀ a, (![3, 0] : Fin 2 → Nat) a + S1x1024.size a ≤ S16x1024.size a
  inb_S16_S1_4 : ∀ a, (![4] : Fin 1 → Nat) a + S1.size a ≤ S16.size a
  inb_S16x1024_S1x1024_4_0 : ∀ a, (![4, 0] : Fin 2 → Nat) a + S1x1024.size a ≤ S16x1024.size a
  inb_S16_S1_5 : ∀ a, (![5] : Fin 1 → Nat) a + S1.size a ≤ S16.size a
  inb_S16x1024_S1x1024_5_0 : ∀ a, (![5, 0] : Fin 2 → Nat) a + S1x1024.size a ≤ S16x1024.size a
  inb_S16_S1_6 : ∀ a, (![6] : Fin 1 → Nat) a + S1.size a ≤ S16.size a
  inb_S16x1024_S1x1024_6_0 : ∀ a, (![6, 0] : Fin 2 → Nat) a + S1x1024.size a ≤ S16x1024.size a
  inb_S16_S1_7 : ∀ a, (![7] : Fin 1 → Nat) a + S1.size a ≤ S16.size a
  inb_S16x1024_S1x1024_7_0 : ∀ a, (![7, 0] : Fin 2 → Nat) a + S1x1024.size a ≤ S16x1024.size a
  inb_S16_S1_8 : ∀ a, (![8] : Fin 1 → Nat) a + S1.size a ≤ S16.size a
  inb_S16x1024_S1x1024_8_0 : ∀ a, (![8, 0] : Fin 2 → Nat) a + S1x1024.size a ≤ S16x1024.size a
  inb_S16_S1_9 : ∀ a, (![9] : Fin 1 → Nat) a + S1.size a ≤ S16.size a
  inb_S16x1024_S1x1024_9_0 : ∀ a, (![9, 0] : Fin 2 → Nat) a + S1x1024.size a ≤ S16x1024.size a
  inb_S16_S1_10 : ∀ a, (![10] : Fin 1 → Nat) a + S1.size a ≤ S16.size a
  inb_S16x1024_S1x1024_10_0 : ∀ a, (![10, 0] : Fin 2 → Nat) a + S1x1024.size a ≤ S16x1024.size a
  inb_S16_S1_11 : ∀ a, (![11] : Fin 1 → Nat) a + S1.size a ≤ S16.size a
  inb_S16x1024_S1x1024_11_0 : ∀ a, (![11, 0] : Fin 2 → Nat) a + S1x1024.size a ≤ S16x1024.size a
  inb_S16_S1_12 : ∀ a, (![12] : Fin 1 → Nat) a + S1.size a ≤ S16.size a
  inb_S16x1024_S1x1024_12_0 : ∀ a, (![12, 0] : Fin 2 → Nat) a + S1x1024.size a ≤ S16x1024.size a
  inb_S16_S1_13 : ∀ a, (![13] : Fin 1 → Nat) a + S1.size a ≤ S16.size a
  inb_S16x1024_S1x1024_13_0 : ∀ a, (![13, 0] : Fin 2 → Nat) a + S1x1024.size a ≤ S16x1024.size a
  inb_S16_S1_14 : ∀ a, (![14] : Fin 1 → Nat) a + S1.size a ≤ S16.size a
  inb_S16x1024_S1x1024_14_0 : ∀ a, (![14, 0] : Fin 2 → Nat) a + S1x1024.size a ≤ S16x1024.size a
  inb_S16_S1_15 : ∀ a, (![15] : Fin 1 → Nat) a + S1.size a ≤ S16.size a
  inb_S16x1024_S1x1024_15_0 : ∀ a, (![15, 0] : Fin 2 → Nat) a + S1x1024.size a ≤ S16x1024.size a
  inb_S16x1024_S16x1024_0_0 : ∀ a, (![0, 0] : Fin 2 → Nat) a + S16x1024.size a ≤ S16x1024.size a
  h_S16x1024 : 0 < S16x1024.numel
  hcc0_scratch1 : 1 + S16.numel ≤ 17
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S16x1024.size a ≤ S16x1024.size a
  hwx0_0 : ∀ i : grid0.Coords, EltTy.bits .f32 = 32 ∨ (Rect.block (s := S16x1024) S16x1024.size (cc0_transform_1 i) (hinb0_0 i)).WholeWords (EltTy.packing .f32)

variable [Facts₀]

abbrev cc0_scratch1 : DmaSems sig S16 := SemArray.consecutive 1 S16 hcc0_scratch1

abbrev spec0_0 : Pipeline.WinSpec sig grid0.rank :=
  Pipeline.WinSpec.ofSpec (Memref.whole main_v4) S16x1024.size reads0_0 true true 1 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S16x4096x1024 : Shape := ⟨3, ![16, 4096, 1024]⟩
abbrev S16x4096 : Shape := ⟨2, ![16, 4096]⟩
abbrev S_ : Shape := ⟨0, ![]⟩
abbrev S16 : Shape := ⟨1, ![16]⟩
abbrev S16x1x1 : Shape := ⟨3, ![16, 1, 1]⟩
abbrev S1 : Shape := ⟨1, ![1]⟩
abbrev S1x1x1 : Shape := ⟨3, ![1, 1, 1]⟩
abbrev S16x1 : Shape := ⟨2, ![16, 1]⟩
abbrev S16x1x1024 : Shape := ⟨3, ![16, 1, 1024]⟩
abbrev S16x1024 : Shape := ⟨2, ![16, 1024]⟩

abbrev nBuf : Space → Nat
  | .hbm => 31
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096, .i32⟩
  | .hbm, ⟨2, _⟩ => ⟨S_, .i32⟩
  | .hbm, ⟨3, _⟩ => ⟨S16, .i32⟩
  | .hbm, ⟨4, _⟩ => ⟨S_, .i32⟩
  | .hbm, ⟨5, _⟩ => ⟨S16, .i32⟩
  | .hbm, ⟨6, _⟩ => ⟨S16, .i32⟩
  | .hbm, ⟨7, _⟩ => ⟨S16x1x1, .i32⟩
  | .hbm, ⟨8, _⟩ => ⟨S_, .i32⟩
  | .hbm, ⟨9, _⟩ => ⟨S16x1x1, .i32⟩
  | .hbm, ⟨10, _⟩ => ⟨S16x1x1, .i1⟩
  | .hbm, ⟨11, _⟩ => ⟨S_, .i32⟩
  | .hbm, ⟨12, _⟩ => ⟨S16x1x1, .i32⟩
  | .hbm, ⟨13, _⟩ => ⟨S16x1x1, .i32⟩
  | .hbm, ⟨14, _⟩ => ⟨S16x1x1, .i32⟩
  | .hbm, ⟨15, _⟩ => ⟨S1, .i32⟩
  | .hbm, ⟨16, _⟩ => ⟨S_, .i32⟩
  | .hbm, ⟨17, _⟩ => ⟨S16x1x1, .i32⟩
  | .hbm, ⟨18, _⟩ => ⟨S16x1x1, .i1⟩
  | .hbm, ⟨19, _⟩ => ⟨S1x1x1, .i32⟩
  | .hbm, ⟨20, _⟩ => ⟨S16x1x1, .i32⟩
  | .hbm, ⟨21, _⟩ => ⟨S16x1x1, .i1⟩
  | .hbm, ⟨22, _⟩ => ⟨S16x1x1, .i1⟩
  | .hbm, ⟨23, _⟩ => ⟨S_, .i1⟩
  | .hbm, ⟨24, _⟩ => ⟨S16x1, .i1⟩
  | .hbm, ⟨25, _⟩ => ⟨S16x1x1024, .f32⟩
  | .hbm, ⟨26, _⟩ => ⟨S16x1x1024, .i1⟩
  | .hbm, ⟨27, _⟩ => ⟨S_, .f32⟩
  | .hbm, ⟨28, _⟩ => ⟨S16x1x1024, .f32⟩
  | .hbm, ⟨29, _⟩ => ⟨S16x1x1024, .f32⟩
  | .hbm, ⟨30, _⟩ => ⟨S16x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_c_2 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_c_3 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v4 : Ref sig .tc := ⟨.hbm, 29, rfl⟩
abbrev main_v5 : Ref sig .tc := ⟨.hbm, 30, rfl⟩

abbrev nD : Nat := 1
abbrev τ : Topo := Topo.v7x

variable {F : FTy → Type} [FloatOps F]

class Facts₀ : Prop where
  reducesTo_S16x4096_S16_d1 : S16x4096.ReducesTo [1] S16
  h_S_ : 0 < S_.numel
  bcast_S_S16 : S_.BroadcastsInDim S16 (![] : Fin 0 → Fin S16.rank)
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S1_S1x1x1_2 : S1.BroadcastsInDim S1x1x1 (![2] : Fin 1 → Fin S1x1x1.rank)
  bcast_S1x1x1_S16x1x1_0_1_2 : S1x1x1.BroadcastsInDim S16x1x1 (![0, 1, 2] : Fin 3 → Fin S16x1x1.rank)
  reducesTo_S16x1x1_S16x1_d2 : S16x1x1.ReducesTo [2] S16x1
  bcast_S16x1_S16x1x1024_0_1 : S16x1.BroadcastsInDim S16x1x1024 (![0, 1] : Fin 2 → Fin S16x1x1024.rank)
  bcast_S_S16x1x1024 : S_.BroadcastsInDim S16x1x1024 (![] : Fin 0 → Fin S16x1x1024.rank)
  shapeCasts_S16x1x1024_S16x1024 : S16x1x1024.ShapeCasts S16x1024
  gather_S16x4096x1024_S16x1x1_S16x1x1024_2_1_0_0_1_2_111024_wf : GatherDims.WF S16x4096x1024 S16x1x1 S16x1x1024 [2] [1] [0] [1] [0] 2 ![1, 1, 1024]

variable [Facts₀]

def gather_S16x4096x1024_S16x1x1_S16x1x1024_2_1_0_0_1_2_111024 : GatherDims S16x4096x1024 S16x1x1 S16x1x1024 where
  offsetDims := [2]
  collapsedSliceDims := [1]
  operandBatchingDims := [0]
  startIndicesBatchingDims := [0]
  startIndexMap := [1]
  indexVectorDim := 2
  sliceSizes := ![1, 1, 1024]
  wf := gather_S16x4096x1024_S16x1x1_S16x1x1024_2_1_0_0_1_2_111024_wf

class Facts : Prop extends Facts₀ where

variable [Facts]
-- ==== Proof.LibWords.lean ====
/-
  Two facts about 32-bit words, stated for any sizes.

  ROW SUMS. In an [n × m] array of words each of which is 0 or 1, the word-level sum of a row cannot wrap: it is the
  number of ones in the row, so it is at most m. The sum at row j is a fold of word addition over the indices that
  reduce to j; those indices are determined by their column, so there are at most m of them, each contributing at
  most 1.

  THE SIGNED CLAMP min(hi, max(0, w)) of a word w into [0, hi] (hi below 2^31, the comparisons signed): it is at most hi
  whatever w is, and it is w itself when w already lies in [0, hi].
-/
import Idealize.ShloMosaic.Lib.StableHlo.Predicate

namespace Cert.LibWords

open Idealize.ShloMosaic Idealize.ShloMosaic.StableHlo.Predicate

/-- The sum along the second axis of an [n × m] array of words each at most 1 is at most m (and does not wrap). -/
theorem toNat_reduce_cols_le {n m : Nat} (hm : m < 2 ^ 32) (x : IVec ⟨2, ![n, m]⟩ 32) (hx : ∀ i, (x i).toNat ≤ 1)
    (h : (⟨2, ![n, m]⟩ : Shape).ReducesTo [1] ⟨1, ![n]⟩) {u : Shape} (hu : 0 < u.numel) (j : (⟨1, ![n]⟩ : Shape).Idx) :
    (Host.reduce IntOp.addi x (constantI u 32 0#32) h hu j).toNat ≤ m := by
  classical
  rw [Host.reduce_eq_fold]
  -- an index that reduces to j lies in row j 0
  have hdrop : ∀ i : (⟨2, ![n, m]⟩ : Shape).Idx, h.drop i = j → i 0 = j 0 := by
    intro i e
    have hv : (h.drop i 0 : Nat) = i 0 := Shape.ReducesTo.drop_apply_val h i 0
    rw [e] at hv
    exact Fin.ext hv.symm
  -- so it is determined by its column: there are at most m such indices
  have hcard : (Finset.univ.filter (fun i : (⟨2, ![n, m]⟩ : Shape).Idx => h.drop i = j)).card ≤ m := by
    have hle := Finset.card_le_card_of_injOn (s := Finset.univ.filter (fun i : (⟨2, ![n, m]⟩ : Shape).Idx => h.drop i = j))
      (t := (Finset.univ : Finset (Fin m))) (fun i => (i 1 : Fin m)) (fun _ _ => Finset.mem_univ _) (by
        intro a ha b hb hab
        have ha0 := hdrop a (Finset.mem_filter.1 (Finset.mem_coe.1 ha)).2
        have hb0 := hdrop b (Finset.mem_filter.1 (Finset.mem_coe.1 hb)).2
        funext k
        match k with
        | ⟨0, _⟩ => exact ha0.trans hb0.symm
        | ⟨1, _⟩ => exact hab)
    simpa using hle
  -- each of them contributes at most 1
  have hones : ∀ T : Finset (⟨2, ![n, m]⟩ : Shape).Idx, ∑ i ∈ T, (x i).toNat ≤ T.card := by
    intro T
    induction T using Finset.cons_induction with
    | empty => simp
    | cons a T ha ih =>
      rw [Finset.sum_cons, Finset.card_cons]
      have := hx a
      omega
  have hsum : ∑ i ∈ Finset.univ.filter (fun i : (⟨2, ![n, m]⟩ : Shape).Idx => h.drop i = j), (x i).toNat ≤ m :=
    (hones _).trans hcard
  show (Finset.fold IntOp.addi 0#32 x (Finset.univ.filter fun i : (⟨2, ![n, m]⟩ : Shape).Idx => h.drop i = j)).toNat ≤ m
  rw [toNat_fold_addi _ _ (lt_of_le_of_lt hsum hm)]
  exact hsum

/-- The signed clamp of any word into [0, hi] is at most hi. -/
theorem clamp_le (w hi : BitVec 32) (hhi : hi.toNat < 2 ^ 31) : (IntOp.minsi hi (IntOp.maxsi 0#32 w)).toNat ≤ hi.toNat := by
  have h0 : (0#32 : BitVec 32).toInt = 0 := by decide
  have hth : hi.toInt = hi.toNat := toInt_eq_toNat_of_lt hhi
  have hwlt := w.isLt
  unfold IntOp.minsi IntOp.maxsi
  by_cases h1 : w.slt 0#32 = true
  · rw [if_pos h1]
    by_cases h2 : hi.slt 0#32 = true
    · rw [if_pos h2]
    · rw [if_neg h2]; simp
  · rw [if_neg h1]
    by_cases h2 : hi.slt w = true
    · rw [if_pos h2]
    · rw [if_neg h2]
      simp only [BitVec.slt, decide_eq_true_eq, h0, hth, not_lt] at h1 h2
      rw [BitVec.toInt_eq_toNat_cond] at h1 h2
      split at h1 <;> omega

/-- The signed clamp into [0, hi] leaves a word that is already there. -/
theorem clamp_eq (w hi : BitVec 32) (hhi : hi.toNat < 2 ^ 31) (hw : w.toNat ≤ hi.toNat) :
    IntOp.minsi hi (IntOp.maxsi 0#32 w) = w := by
  have h0 : (0#32 : BitVec 32).toInt = 0 := by decide
  have hth : hi.toInt = hi.toNat := toInt_eq_toNat_of_lt hhi
  have htw : w.toInt = w.toNat := toInt_eq_toNat_of_lt (by omega)
  have hmax : IntOp.maxsi 0#32 w = w := by
    unfold IntOp.maxsi
    have : ¬ (w.slt 0#32 = true) := by
      simp only [BitVec.slt, decide_eq_true_eq, h0, htw, not_lt]; omega
    rw [if_neg this]
  rw [hmax]
  unfold IntOp.minsi
  by_cases h2 : hi.slt w = true
  · simp only [BitVec.slt, decide_eq_true_eq, hth, htw] at h2
    exact absurd h2 (by omega)
  · rw [if_neg h2]

end Cert.LibWords
-- ==== Proof.Spec.lean ====
/-
  WHAT BOTH PROGRAMS COMPUTE, as one function of the two argument arrays.

  The arguments are the hidden states x : [16, 4096, 1024] and an attention mask : [16, 4096] of 32-bit words. For
  sequence b let count b be the word-level sum of the mask's row b (the number of valid tokens when the mask is 0/1).
  The kernel's wrapper clamps count b − 1 into [0, 4095] (signed) and the kernel copies row (b, that index) of x into
  row b of the result; so the result is

      G x mask (b, h) = x (b, row b, h),     row b = clamp(count b − 1, 0, 4095).

  The clamp makes row b a valid row index for EVERY mask (`rowWord_le`), so the kernel's side of the statement needs
  nothing of the mask. The reference gathers at count b − 1 itself (wrapping a negative index once by 4096 and filling
  with NaN outside [0, 4095]); the two agree exactly when 1 ≤ count b ≤ 4096 for every b (`InRange`), which is what a
  0/1 mask with at least one valid token per sequence gives: then the clamp does nothing (`rowWord_eq`).
-/
import Idealize.ShloMosaic.Lib.ValueIdx
import proofs.«420670_j87883620811288_3_alg».proof.Proof.LibWords

namespace Cert.LastToken

open Idealize.ShloMosaic Idealize.ShloMosaic.ValueIdx

abbrev SH : Shape := ⟨3, ![16, 4096, 1024]⟩
abbrev SM : Shape := ⟨2, ![16, 4096]⟩
abbrev SO : Shape := ⟨2, ![16, 1024]⟩
abbrev SB : Shape := ⟨1, ![16]⟩
abbrev S0 : Shape := ⟨0, ![]⟩

theorem hr : SM.ReducesTo [1] SB := by decide
theorem h0 : 0 < S0.numel := by decide

/-- The word-level sum of each row of the mask: the number of valid tokens of each sequence. -/
def count (mask : IVec SM 32) : IVec SB 32 := Host.reduce IntOp.addi mask (constantI S0 32 0#32) hr h0

/-- The word handed to the kernel for sequence b: count b − 1 clamped (signed) into [0, 4095]. -/
def rowWord (mask : IVec SM 32) (b : Fin 16) : BitVec 32 :=
  IntOp.minsi 4095#32 (IntOp.maxsi 0#32 (IntOp.subi (count mask (ix1 b)) 1#32))

/-- Whatever the mask holds, the clamped word names a row of the 4096. -/
theorem rowWord_le (mask : IVec SM 32) (b : Fin 16) : (rowWord mask b).toNat ≤ 4095 :=
  Cert.LibWords.clamp_le _ 4095#32 (by decide)

/-- The row of x that sequence b's result row is copied from. -/
def row (mask : IVec SM 32) (b : Fin 16) : Fin 4096 := ⟨(rowWord mask b).toNat, Nat.lt_succ_of_le (rowWord_le mask b)⟩

/-- THE RESULT: row b of the result is row (b, row b) of x. -/
def G {α : Type} (x : SH.Idx → α) (mask : IVec SM 32) : SO.Idx → α := fun j => x (ix3 (j 0) (row mask (j 0)) (j 1))

/-- Every sequence has between 1 and 4096 valid tokens (as counted by the word-level sum). -/
def InRange (mask : IVec SM 32) : Prop := ∀ b : Fin 16, 1 ≤ (count mask (ix1 b)).toNat ∧ (count mask (ix1 b)).toNat ≤ 4096

/-- With the count in range, count − 1 is the index of the last valid token, a word in [0, 4095], -/
theorem sub_one_toNat {mask : IVec SM 32} (h : InRange mask) (b : Fin 16) :
    (IntOp.subi (count mask (ix1 b)) 1#32).toNat = (count mask (ix1 b)).toNat - 1 := by
  obtain ⟨h1, h2⟩ := h b
  show ((count mask (ix1 b)) - 1#32).toNat = _
  rw [BitVec.toNat_sub]
  simp only [BitVec.toNat_ofNat]
  omega

/-- and the clamp leaves it as it is. -/
theorem rowWord_eq {mask : IVec SM 32} (h : InRange mask) (b : Fin 16) :
    rowWord mask b = IntOp.subi (count mask (ix1 b)) 1#32 := by
  obtain ⟨h1, h2⟩ := h b
  refine Cert.LibWords.clamp_eq _ 4095#32 (by decide) ?_
  rw [sub_one_toNat h b]
  show _ ≤ 4095
  omega

theorem row_val {mask : IVec SM 32} (h : InRange mask) (b : Fin 16) : (row mask b).val = (count mask (ix1 b)).toNat - 1 := by
  unfold row
  dsimp only
  rw [rowWord_eq h b, sub_one_toNat h b]

end Cert.LastToken
-- ==== Proof.KernelHyps.lean ====
/-
  THE SIDE CONDITIONS THE BODY ASSUMES hold for every mask. The body reads, for each sequence b, the word the wrapper
  computed for it and copies row (b, word) of the hidden states; it assumes that row exists: word + 1 ≤ 4096. The table
  the region is entered with is the wrapper's clamp min(4095, max(0, count b − 1)) (`tbl_apply`), which is at most 4095
  whatever the mask holds (`Cert.LastToken.rowWord_le`): nothing of the precondition is needed.
-/
import proofs.«420670_j87883620811288_3_alg».proof.Proof.KernelFrame
import proofs.«420670_j87883620811288_3_alg».proof.Proof.Spec
import Idealize.ShloMosaic.Lib.StableHlo.Run

set_option maxRecDepth 16384

noncomputable section

namespace Cert.Kernel.HypsOfPre

open Cert.Kernel Cert.Kernel.Gen Cert.LastToken
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

/-- The mask as the program is launched with it (the program runs on one device). -/
abbrev maskOf : IVec SM 32 := m (((0 : Dev nD) : Thread nD τ).loc main_arg1)

/-- The word the body reads at offset k of the table is the table's entry k. -/
theorem word_read (c : Dev nD) (xt : TbBuf0 (F := F) c tbM0_0) (k : Fin 16) (off : Fin 1 → Nat) (hoff : off 0 = k.val)
    {inb : ∀ a, off a + S1.size a ≤ S16.size a} {h1 : 0 < S1.numel} :
    tbM0_0.view.readAt (Elt F) (Rect.unit (s := S16) off S1.size inb).toLoadRect xt (Shape.Idx.first h1) = xt (ix1 k) := by
  rw [View.readAt_apply, View.read_apply]
  simp only [cast_eq]
  congr 1
  funext a
  apply Fin.ext
  match a with
  | ⟨0, _⟩ =>
    show off 0 + 1 * (Shape.Idx.first h1 (0 : Fin 1)).val = k.val
    have : (Shape.Idx.first h1 (0 : Fin 1)).val = 0 := by
      have := (Shape.Idx.first h1 (0 : Fin 1)).isLt
      have e : S1.size (0 : Fin 1) = 1 := by decide
      omega
    rw [this, hoff]; omega

/-- The table the region is entered with: the wrapper's clamp of count − 1, sequence by sequence. -/
theorem tbl_apply (b : Fin 16) : (tbl m 0 : S16.Idx → BitVec 32) (ix1 b) = rowWord (maskOf m) b := by
  have e : (tbl m 0 : S16.Idx → BitVec 32)
      = minsi (broadcastInDim S16 ![] bcast_S_S16 (id (constantI S_ 32 4095#32)))
          (maxsi (broadcastInDim S16 ![] bcast_S_S16 (id (constantI S_ 32 0#32)))
            (subi (Host.reduce IntOp.addi (maskOf m) (constantI S_ 32 0#32) reducesTo_S16x4096_S16_d1 h_S_)
              (broadcastInDim S16 ![] bcast_S_S16 (constantI S_ 32 1#32)))) := by
    unfold tbl
    show V m 0 main_v3 = _
    dsimp only [V]
    simp only [hostOps0, hostOps0_1, List.flatten_cons, List.flatten_nil, List.append_nil, List.cons_append, List.nil_append]
    after_results <;> (try simp only [TRef.ofBuf, TRef.toBuf, cast_eq]) <;> rfl
  rw [e]
  rfl

/-- Every entry of the table names a row of the 4096. -/
theorem tbl_le (b : Fin 16) : ((tbl m 0 : S16.Idx → BitVec 32) (ix1 b)).toNat ≤ 4095 := by
  rw [tbl_apply]
  exact rowWord_le _ _

theorem chk1 (v : BitVec 32) (hv : v.toNat ≤ 4095) : k0_chk1 v := by
  refine ⟨fun a => ?_, fun a => ?_⟩ <;> fin_cases a <;> simp [k0_off1, k0_off17, S1x1x1024, S16x4096x1024] <;> omega
theorem chk2 (v : BitVec 32) (hv : v.toNat ≤ 4095) : k0_chk2 v := by
  refine ⟨fun a => ?_, fun a => ?_⟩ <;> fin_cases a <;> simp [k0_off2, k0_off18, S1x1x1024, S16x4096x1024] <;> omega
theorem chk3 (v : BitVec 32) (hv : v.toNat ≤ 4095) : k0_chk3 v := by
  refine ⟨fun a => ?_, fun a => ?_⟩ <;> fin_cases a <;> simp [k0_off3, k0_off19, S1x1x1024, S16x4096x1024] <;> omega
theorem chk4 (v : BitVec 32) (hv : v.toNat ≤ 4095) : k0_chk4 v := by
  refine ⟨fun a => ?_, fun a => ?_⟩ <;> fin_cases a <;> simp [k0_off4, k0_off20, S1x1x1024, S16x4096x1024] <;> omega
theorem chk5 (v : BitVec 32) (hv : v.toNat ≤ 4095) : k0_chk5 v := by
  refine ⟨fun a => ?_, fun a => ?_⟩ <;> fin_cases a <;> simp [k0_off5, k0_off21, S1x1x1024, S16x4096x1024] <;> omega
theorem chk6 (v : BitVec 32) (hv : v.toNat ≤ 4095) : k0_chk6 v := by
  refine ⟨fun a => ?_, fun a => ?_⟩ <;> fin_cases a <;> simp [k0_off6, k0_off22, S1x1x1024, S16x4096x1024] <;> omega
theorem chk7 (v : BitVec 32) (hv : v.toNat ≤ 4095) : k0_chk7 v := by
  refine ⟨fun a => ?_, fun a => ?_⟩ <;> fin_cases a <;> simp [k0_off7, k0_off23, S1x1x1024, S16x4096x1024] <;> omega
theorem chk8 (v : BitVec 32) (hv : v.toNat ≤ 4095) : k0_chk8 v := by
  refine ⟨fun a => ?_, fun a => ?_⟩ <;> fin_cases a <;> simp [k0_off8, k0_off24, S1x1x1024, S16x4096x1024] <;> omega
theorem chk9 (v : BitVec 32) (hv : v.toNat ≤ 4095) : k0_chk9 v := by
  refine ⟨fun a => ?_, fun a => ?_⟩ <;> fin_cases a <;> simp [k0_off9, k0_off25, S1x1x1024, S16x4096x1024] <;> omega
theorem chk10 (v : BitVec 32) (hv : v.toNat ≤ 4095) : k0_chk10 v := by
  refine ⟨fun a => ?_, fun a => ?_⟩ <;> fin_cases a <;> simp [k0_off10, k0_off26, S1x1x1024, S16x4096x1024] <;> omega
theorem chk11 (v : BitVec 32) (hv : v.toNat ≤ 4095) : k0_chk11 v := by
  refine ⟨fun a => ?_, fun a => ?_⟩ <;> fin_cases a <;> simp [k0_off11, k0_off27, S1x1x1024, S16x4096x1024] <;> omega
theorem chk12 (v : BitVec 32) (hv : v.toNat ≤ 4095) : k0_chk12 v := by
  refine ⟨fun a => ?_, fun a => ?_⟩ <;> fin_cases a <;> simp [k0_off12, k0_off28, S1x1x1024, S16x4096x1024] <;> omega
theorem chk13 (v : BitVec 32) (hv : v.toNat ≤ 4095) : k0_chk13 v := by
  refine ⟨fun a => ?_, fun a => ?_⟩ <;> fin_cases a <;> simp [k0_off13, k0_off29, S1x1x1024, S16x4096x1024] <;> omega
theorem chk14 (v : BitVec 32) (hv : v.toNat ≤ 4095) : k0_chk14 v := by
  refine ⟨fun a => ?_, fun a => ?_⟩ <;> fin_cases a <;> simp [k0_off14, k0_off30, S1x1x1024, S16x4096x1024] <;> omega
theorem chk15 (v : BitVec 32) (hv : v.toNat ≤ 4095) : k0_chk15 v := by
  refine ⟨fun a => ?_, fun a => ?_⟩ <;> fin_cases a <;> simp [k0_off15, k0_off31, S1x1x1024, S16x4096x1024] <;> omega
theorem chk16 (v : BitVec 32) (hv : v.toNat ≤ 4095) : k0_chk16 v := by
  intro a; fin_cases a <;> simp [k0_off16, S1x1x1024, S16x4096x1024] <;> omega

/-- The pipeline's side condition of the table is empty, -/
theorem ok : Ok m := trivial

/-- and the sixteen checks the body assumes hold at every point. -/
theorem hyps : Hyps m (ok m) :=
  Hyps.of
    (fun c t => by show k0_chk1 _; rw [word_read c (tbl m 0) ⟨0, by omega⟩ _ rfl]; exact chk1 _ (tbl_le m _))
    (fun c t => by show k0_chk2 _; rw [word_read c (tbl m 0) ⟨1, by omega⟩ _ rfl]; exact chk2 _ (tbl_le m _))
    (fun c t => by show k0_chk3 _; rw [word_read c (tbl m 0) ⟨2, by omega⟩ _ rfl]; exact chk3 _ (tbl_le m _))
    (fun c t => by show k0_chk4 _; rw [word_read c (tbl m 0) ⟨3, by omega⟩ _ rfl]; exact chk4 _ (tbl_le m _))
    (fun c t => by show k0_chk5 _; rw [word_read c (tbl m 0) ⟨4, by omega⟩ _ rfl]; exact chk5 _ (tbl_le m _))
    (fun c t => by show k0_chk6 _; rw [word_read c (tbl m 0) ⟨5, by omega⟩ _ rfl]; exact chk6 _ (tbl_le m _))
    (fun c t => by show k0_chk7 _; rw [word_read c (tbl m 0) ⟨6, by omega⟩ _ rfl]; exact chk7 _ (tbl_le m _))
    (fun c t => by show k0_chk8 _; rw [word_read c (tbl m 0) ⟨7, by omega⟩ _ rfl]; exact chk8 _ (tbl_le m _))
    (fun c t => by show k0_chk9 _; rw [word_read c (tbl m 0) ⟨8, by omega⟩ _ rfl]; exact chk9 _ (tbl_le m _))
    (fun c t => by show k0_chk10 _; rw [word_read c (tbl m 0) ⟨9, by omega⟩ _ rfl]; exact chk10 _ (tbl_le m _))
    (fun c t => by show k0_chk11 _; rw [word_read c (tbl m 0) ⟨10, by omega⟩ _ rfl]; exact chk11 _ (tbl_le m _))
    (fun c t => by show k0_chk12 _; rw [word_read c (tbl m 0) ⟨11, by omega⟩ _ rfl]; exact chk12 _ (tbl_le m _))
    (fun c t => by show k0_chk13 _; rw [word_read c (tbl m 0) ⟨12, by omega⟩ _ rfl]; exact chk13 _ (tbl_le m _))
    (fun c t => by show k0_chk14 _; rw [word_read c (tbl m 0) ⟨13, by omega⟩ _ rfl]; exact chk14 _ (tbl_le m _))
    (fun c t => by show k0_chk15 _; rw [word_read c (tbl m 0) ⟨14, by omega⟩ _ rfl]; exact chk15 _ (tbl_le m _))
    (fun c t => by show k0_chk16 _; rw [word_read c (tbl m 0) ⟨15, by omega⟩ _ rfl]; exact chk16 _ (tbl_le m _))

end Cert.Kernel.HypsOfPre

end
-- ==== Proof.KernelIdealHyps.lean ====
/-
  THE SIDE CONDITIONS THE BODY ASSUMES hold for every mask. The body reads, for each sequence b, the word the wrapper
  computed for it and copies row (b, word) of the hidden states; it assumes that row exists: word + 1 ≤ 4096. The table
  the region is entered with is the wrapper's clamp min(4095, max(0, count b − 1)) (`tbl_apply`), which is at most 4095
  whatever the mask holds (`Cert.LastToken.rowWord_le`): nothing of the precondition is needed.
-/
import proofs.«420670_j87883620811288_3_alg».proof.Proof.KernelIdealFrame
import proofs.«420670_j87883620811288_3_alg».proof.Proof.Spec
import Idealize.ShloMosaic.Lib.StableHlo.Run

set_option maxRecDepth 16384

noncomputable section

namespace Cert.KernelIdeal.HypsOfPre

open Cert.KernelIdeal Cert.KernelIdeal.Gen Cert.LastToken
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

/-- The mask as the program is launched with it (the program runs on one device). -/
abbrev maskOf : IVec SM 32 := m (((0 : Dev nD) : Thread nD τ).loc main_arg1)

/-- The word the body reads at offset k of the table is the table's entry k. -/
theorem word_read (c : Dev nD) (xt : TbBuf0 (F := F) c tbM0_0) (k : Fin 16) (off : Fin 1 → Nat) (hoff : off 0 = k.val)
    {inb : ∀ a, off a + S1.size a ≤ S16.size a} {h1 : 0 < S1.numel} :
    tbM0_0.view.readAt (Elt F) (Rect.unit (s := S16) off S1.size inb).toLoadRect xt (Shape.Idx.first h1) = xt (ix1 k) := by
  rw [View.readAt_apply, View.read_apply]
  simp only [cast_eq]
  congr 1
  funext a
  apply Fin.ext
  match a with
  | ⟨0, _⟩ =>
    show off 0 + 1 * (Shape.Idx.first h1 (0 : Fin 1)).val = k.val
    have : (Shape.Idx.first h1 (0 : Fin 1)).val = 0 := by
      have := (Shape.Idx.first h1 (0 : Fin 1)).isLt
      have e : S1.size (0 : Fin 1) = 1 := by decide
      omega
    rw [this, hoff]; omega

/-- The table the region is entered with: the wrapper's clamp of count − 1, sequence by sequence. -/
theorem tbl_apply (b : Fin 16) : (tbl m 0 : S16.Idx → BitVec 32) (ix1 b) = rowWord (maskOf m) b := by
  have e : (tbl m 0 : S16.Idx → BitVec 32)
      = minsi (broadcastInDim S16 ![] bcast_S_S16 (id (constantI S_ 32 4095#32)))
          (maxsi (broadcastInDim S16 ![] bcast_S_S16 (id (constantI S_ 32 0#32)))
            (subi (Host.reduce IntOp.addi (maskOf m) (constantI S_ 32 0#32) reducesTo_S16x4096_S16_d1 h_S_)
              (broadcastInDim S16 ![] bcast_S_S16 (constantI S_ 32 1#32)))) := by
    unfold tbl
    show V m 0 main_v3 = _
    dsimp only [V]
    simp only [hostOps0, hostOps0_1, List.flatten_cons, List.flatten_nil, List.append_nil, List.cons_append, List.nil_append]
    after_results <;> (try simp only [TRef.ofBuf, TRef.toBuf, cast_eq]) <;> rfl
  rw [e]
  rfl

/-- Every entry of the table names a row of the 4096. -/
theorem tbl_le (b : Fin 16) : ((tbl m 0 : S16.Idx → BitVec 32) (ix1 b)).toNat ≤ 4095 := by
  rw [tbl_apply]
  exact rowWord_le _ _

theorem chk1 (v : BitVec 32) (hv : v.toNat ≤ 4095) : k0_chk1 v := by
  refine ⟨fun a => ?_, fun a => ?_⟩ <;> fin_cases a <;> simp [k0_off1, k0_off17, S1x1x1024, S16x4096x1024] <;> omega
theorem chk2 (v : BitVec 32) (hv : v.toNat ≤ 4095) : k0_chk2 v := by
  refine ⟨fun a => ?_, fun a => ?_⟩ <;> fin_cases a <;> simp [k0_off2, k0_off18, S1x1x1024, S16x4096x1024] <;> omega
theorem chk3 (v : BitVec 32) (hv : v.toNat ≤ 4095) : k0_chk3 v := by
  refine ⟨fun a => ?_, fun a => ?_⟩ <;> fin_cases a <;> simp [k0_off3, k0_off19, S1x1x1024, S16x4096x1024] <;> omega
theorem chk4 (v : BitVec 32) (hv : v.toNat ≤ 4095) : k0_chk4 v := by
  refine ⟨fun a => ?_, fun a => ?_⟩ <;> fin_cases a <;> simp [k0_off4, k0_off20, S1x1x1024, S16x4096x1024] <;> omega
theorem chk5 (v : BitVec 32) (hv : v.toNat ≤ 4095) : k0_chk5 v := by
  refine ⟨fun a => ?_, fun a => ?_⟩ <;> fin_cases a <;> simp [k0_off5, k0_off21, S1x1x1024, S16x4096x1024] <;> omega
theorem chk6 (v : BitVec 32) (hv : v.toNat ≤ 4095) : k0_chk6 v := by
  refine ⟨fun a => ?_, fun a => ?_⟩ <;> fin_cases a <;> simp [k0_off6, k0_off22, S1x1x1024, S16x4096x1024] <;> omega
theorem chk7 (v : BitVec 32) (hv : v.toNat ≤ 4095) : k0_chk7 v := by
  refine ⟨fun a => ?_, fun a => ?_⟩ <;> fin_cases a <;> simp [k0_off7, k0_off23, S1x1x1024, S16x4096x1024] <;> omega
theorem chk8 (v : BitVec 32) (hv : v.toNat ≤ 4095) : k0_chk8 v := by
  refine ⟨fun a => ?_, fun a => ?_⟩ <;> fin_cases a <;> simp [k0_off8, k0_off24, S1x1x1024, S16x4096x1024] <;> omega
theorem chk9 (v : BitVec 32) (hv : v.toNat ≤ 4095) : k0_chk9 v := by
  refine ⟨fun a => ?_, fun a => ?_⟩ <;> fin_cases a <;> simp [k0_off9, k0_off25, S1x1x1024, S16x4096x1024] <;> omega
theorem chk10 (v : BitVec 32) (hv : v.toNat ≤ 4095) : k0_chk10 v := by
  refine ⟨fun a => ?_, fun a => ?_⟩ <;> fin_cases a <;> simp [k0_off10, k0_off26, S1x1x1024, S16x4096x1024] <;> omega
theorem chk11 (v : BitVec 32) (hv : v.toNat ≤ 4095) : k0_chk11 v := by
  refine ⟨fun a => ?_, fun a => ?_⟩ <;> fin_cases a <;> simp [k0_off11, k0_off27, S1x1x1024, S16x4096x1024] <;> omega
theorem chk12 (v : BitVec 32) (hv : v.toNat ≤ 4095) : k0_chk12 v := by
  refine ⟨fun a => ?_, fun a => ?_⟩ <;> fin_cases a <;> simp [k0_off12, k0_off28, S1x1x1024, S16x4096x1024] <;> omega
theorem chk13 (v : BitVec 32) (hv : v.toNat ≤ 4095) : k0_chk13 v := by
  refine ⟨fun a => ?_, fun a => ?_⟩ <;> fin_cases a <;> simp [k0_off13, k0_off29, S1x1x1024, S16x4096x1024] <;> omega
theorem chk14 (v : BitVec 32) (hv : v.toNat ≤ 4095) : k0_chk14 v := by
  refine ⟨fun a => ?_, fun a => ?_⟩ <;> fin_cases a <;> simp [k0_off14, k0_off30, S1x1x1024, S16x4096x1024] <;> omega
theorem chk15 (v : BitVec 32) (hv : v.toNat ≤ 4095) : k0_chk15 v := by
  refine ⟨fun a => ?_, fun a => ?_⟩ <;> fin_cases a <;> simp [k0_off15, k0_off31, S1x1x1024, S16x4096x1024] <;> omega
theorem chk16 (v : BitVec 32) (hv : v.toNat ≤ 4095) : k0_chk16 v := by
  intro a; fin_cases a <;> simp [k0_off16, S1x1x1024, S16x4096x1024] <;> omega

/-- The pipeline's side condition of the table is empty, -/
theorem ok : Ok m := trivial

/-- and the sixteen checks the body assumes hold at every point. -/
theorem hyps : Hyps m (ok m) :=
  Hyps.of
    (fun c t => by show k0_chk1 _; rw [word_read c (tbl m 0) ⟨0, by omega⟩ _ rfl]; exact chk1 _ (tbl_le m _))
    (fun c t => by show k0_chk2 _; rw [word_read c (tbl m 0) ⟨1, by omega⟩ _ rfl]; exact chk2 _ (tbl_le m _))
    (fun c t => by show k0_chk3 _; rw [word_read c (tbl m 0) ⟨2, by omega⟩ _ rfl]; exact chk3 _ (tbl_le m _))
    (fun c t => by show k0_chk4 _; rw [word_read c (tbl m 0) ⟨3, by omega⟩ _ rfl]; exact chk4 _ (tbl_le m _))
    (fun c t => by show k0_chk5 _; rw [word_read c (tbl m 0) ⟨4, by omega⟩ _ rfl]; exact chk5 _ (tbl_le m _))
    (fun c t => by show k0_chk6 _; rw [word_read c (tbl m 0) ⟨5, by omega⟩ _ rfl]; exact chk6 _ (tbl_le m _))
    (fun c t => by show k0_chk7 _; rw [word_read c (tbl m 0) ⟨6, by omega⟩ _ rfl]; exact chk7 _ (tbl_le m _))
    (fun c t => by show k0_chk8 _; rw [word_read c (tbl m 0) ⟨7, by omega⟩ _ rfl]; exact chk8 _ (tbl_le m _))
    (fun c t => by show k0_chk9 _; rw [word_read c (tbl m 0) ⟨8, by omega⟩ _ rfl]; exact chk9 _ (tbl_le m _))
    (fun c t => by show k0_chk10 _; rw [word_read c (tbl m 0) ⟨9, by omega⟩ _ rfl]; exact chk10 _ (tbl_le m _))
    (fun c t => by show k0_chk11 _; rw [word_read c (tbl m 0) ⟨10, by omega⟩ _ rfl]; exact chk11 _ (tbl_le m _))
    (fun c t => by show k0_chk12 _; rw [word_read c (tbl m 0) ⟨11, by omega⟩ _ rfl]; exact chk12 _ (tbl_le m _))
    (fun c t => by show k0_chk13 _; rw [word_read c (tbl m 0) ⟨12, by omega⟩ _ rfl]; exact chk13 _ (tbl_le m _))
    (fun c t => by show k0_chk14 _; rw [word_read c (tbl m 0) ⟨13, by omega⟩ _ rfl]; exact chk14 _ (tbl_le m _))
    (fun c t => by show k0_chk15 _; rw [word_read c (tbl m 0) ⟨14, by omega⟩ _ rfl]; exact chk15 _ (tbl_le m _))
    (fun c t => by show k0_chk16 _; rw [word_read c (tbl m 0) ⟨15, by omega⟩ _ rfl]; exact chk16 _ (tbl_le m _))

end Cert.KernelIdeal.HypsOfPre

end
-- ==== Proof.KernelIdealValue.lean ====
/-
  WHAT THE KERNEL LEAVES IN ITS RESULT. The body issues sixteen row copies, copy b taking row (b, word b) of the hidden
  states x (word b the b-th entry of the table) to row b of a scratch block, waits for all of them, and stores the scratch
  block whole to the output block. Every copy's payload is the one function

      Gk (b, h) = x (b, word b, h)

  read at the copy's own row, the sixteen rows tile the block, so the scratch read back whole is Gk, and so is the output
  block (`out_eq`). The launch has one grid point and the output's block is the whole result array, so the result array
  ends at Gk (`final`), which at the table the wrapper computed is the specification's G (`Gk_tbl`).
-/
import proofs.«420670_j87883620811288_3_alg».proof.Proof.KernelIdealHyps
import Idealize.ShloMosaic.Lib.Pipeline.Value
import Idealize.ShloMosaic.Lib.ValueLayout

set_option maxRecDepth 16384

noncomputable section

namespace Cert.KernelIdeal.KernelValue

open Cert.KernelIdeal Cert.KernelIdeal.Gen Cert.KernelIdeal.GenP Cert.KernelIdeal.HypsOfPre Cert.LastToken
open Idealize.ShloMosaic Idealize.ShloMosaic.TcCoe Idealize.ShloMosaic.ValueIdx Idealize.SL.Sem Idealize.ShloMosaic.Tactic
open Idealize.ShloMosaic.Pipeline (Dat)

variable {F : FTy → Type} [FloatOps F]

/-- Row b of the block is row (b, word b) of x; the word is cut at 4095 so that the term names a row for every table (under
    the body's checks the cut does nothing). -/
def Gk (xt : S16.Idx → BitVec 32) (x : S16x4096x1024.Idx → Elt F .f32) : S16x1024.Idx → Elt F .f32 :=
  fun y => x (ix3 (y 0) ⟨min (xt (ix1 (y 0))).toNat 4095, by omega⟩ (y 1))

/-- A [1, 1024] index has leading coordinate 0. -/
theorem lead0 (x : S1x1024.Idx) : (x 0).val = 0 := by
  have h := (x 0).isLt
  have e : S1x1024.size 0 = 1 := by decide
  omega

/-- ONE ROW COPY's source, read at column q: the [1, 1, 1024] rectangle of x at offsets (b, r, 0), seen as a [1, 1024] row. -/
theorem row_read (c : Dev nD) (fh0 : HbBuf0 (F := F) c hbM0_0) (b : Fin 16) (r : Fin 4096) (off : Fin 3 → Nat)
    (h0 : off 0 = b.val) (h1 : off 1 = r.val) (h2 : off 2 = 0)
    {inbo : ∀ a, off a + S1x1x1024.size a ≤ S16x4096x1024.size a}
    {hs : ∀ a, (Rect.unit (s := S16x4096x1024) off S1x1x1024.size inbo).stride a = 1} (p : Fin 1) (q : Fin 1024) :
    View.read (Elt F) (((Memref.whole main_arg0).slice (Rect.unit (s := S16x4096x1024) off S1x1x1024.size inbo) hs).squeeze S1x1024 squeezes_S1x1x1024_S1x1024).view fh0 (ix2 p q)
      = (fh0 : S16x4096x1024.Idx → Elt F .f32) (ix3 b r q) := by
  rw [View.read_apply]
  simp only [cast_eq]
  congr 1
  simp only [Memref.view_squeeze, Memref.view_slice, Memref.view_whole, View.emb_reshape, View.emb_slice, View.emb_whole,
    Function.Embedding.trans_apply, Equiv.coe_toEmbedding, Function.Embedding.refl_apply]
  rw [reshapeEquiv_ix2_1ab]
  funext a
  apply Fin.ext
  have hp : p.val = 0 := by omega
  match a with
  | ⟨0, _⟩ => show off 0 + 1 * 0 = b.val; omega
  | ⟨1, _⟩ => show off 1 + 1 * p.val = r.val; omega
  | ⟨2, _⟩ => show off 2 + 1 * q.val = q.val; omega

/-- The copy for sequence k, whose source starts at row w = word k (a row index by the body's check), lands in row k of the
    block the function Gk at that row's indices. -/
theorem row_piece (c : Dev nD) (xt0 : TbBuf0 (F := F) c tbM0_0) (fh0 : HbBuf0 (F := F) c hbM0_0) (k : Fin 16) (w : BitVec 32)
    (hw : w = (xt0 : S16.Idx → BitVec 32) (ix1 k)) (hle : w.toNat ≤ 4095)
    (off : Fin 3 → Nat) (h0 : off 0 = k.val) (h1 : off 1 = w.toNat) (h2 : off 2 = 0)
    {inbo : ∀ a, off a + S1x1x1024.size a ≤ S16x4096x1024.size a}
    {hs : ∀ a, (Rect.unit (s := S16x4096x1024) off S1x1x1024.size inbo).stride a = 1}
    (roff : Fin 2 → Nat) (hr0 : roff 0 = k.val) (hr1 : roff 1 = 0) {inbr : ∀ a, roff a + S1x1024.size a ≤ S16x1024.size a}
    (x : S1x1024.Idx) :
    ReadAs.same.apply (View.read (Elt F) (((Memref.whole main_arg0).slice (Rect.unit (s := S16x4096x1024) off S1x1x1024.size inbo) hs).squeeze S1x1024 squeezes_S1x1x1024_S1x1024).view fh0) x
      = Gk (xt0 : S16.Idx → BitVec 32) (fh0 : S16x4096x1024.Idx → Elt F .f32) ((Rect.unit (s := S16x1024) roff S1x1024.size inbr).emb x) := by
  obtain ⟨p, q, rfl⟩ : ∃ (p : Fin 1) (q : Fin 1024), x = ix2 p q := ⟨x 0, x 1, eq_ix2 x⟩
  rw [ReadAs.apply_same, row_read c fh0 k ⟨w.toNat, by omega⟩ off h0 h1 h2 p q]
  have hp : p.val = 0 := by omega
  have e : (Rect.unit (s := S16x1024) roff S1x1024.size inbr).emb (ix2 p q) = ix2 k q := by
    funext a
    apply Fin.ext
    match a with
    | ⟨0, _⟩ => show roff 0 + 1 * p.val = k.val; omega
    | ⟨1, _⟩ => show roff 1 + 1 * q.val = q.val; omega
  rw [e]
  unfold Gk
  show _ = (fh0 : S16x4096x1024.Idx → Elt F .f32) (ix3 k ⟨min ((xt0 : S16.Idx → BitVec 32) (ix1 k)).toNat 4095, _⟩ q)
  congr 2
  apply Fin.ext
  show w.toNat = min ((xt0 : S16.Idx → BitVec 32) (ix1 k)).toNat 4095
  rw [← hw]; omega

theorem hz2 : (![0, 0] : Fin 2 → Nat) = fun _ => 0 := by funext a; fin_cases a <;> rfl

/-- THE BLOCK THE BODY LEAVES is Gk of the table and the hidden states it was handed. -/
theorem out_eq (c : Dev nD) (i : grid0.Coords) (arg3 : Memref sig .tc .vmem S16x1024 .f32) (harg3 : arg3.IsWhole) (arg4 : Memref sig .tc .vmem S16x1024 .f32) (harg4 : arg4.IsWhole)
    (xt0 : TbBuf0 (F := F) c tbM0_0) (fh0 : HbBuf0 (F := F) c hbM0_0) (k0_hw1 : k0_chk1 (tbM0_0.view.readAt (Elt F) (Rect.unit (s := S16) ![0] S1.size inb_S16_S1_0).toLoadRect xt0 (Shape.Idx.first (numel1_S1.symm ▸ Nat.one_pos)))) (k0_hw2 : k0_chk2 (tbM0_0.view.readAt (Elt F) (Rect.unit (s := S16) ![1] S1.size inb_S16_S1_1).toLoadRect xt0 (Shape.Idx.first (numel1_S1.symm ▸ Nat.one_pos)))) (k0_hw3 : k0_chk3 (tbM0_0.view.readAt (Elt F) (Rect.unit (s := S16) ![2] S1.size inb_S16_S1_2).toLoadRect xt0 (Shape.Idx.first (numel1_S1.symm ▸ Nat.one_pos)))) (k0_hw4 : k0_chk4 (tbM0_0.view.readAt (Elt F) (Rect.unit (s := S16) ![3] S1.size inb_S16_S1_3).toLoadRect xt0 (Shape.Idx.first (numel1_S1.symm ▸ Nat.one_pos)))) (k0_hw5 : k0_chk5 (tbM0_0.view.readAt (Elt F) (Rect.unit (s := S16) ![4] S1.size inb_S16_S1_4).toLoadRect xt0 (Shape.Idx.first (numel1_S1.symm ▸ Nat.one_pos)))) (k0_hw6 : k0_chk6 (tbM0_0.view.readAt (Elt F) (Rect.unit (s := S16) ![5] S1.size inb_S16_S1_5).toLoadRect xt0 (Shape.Idx.first (numel1_S1.symm ▸ Nat.one_pos)))) (k0_hw7 : k0_chk7 (tbM0_0.view.readAt (Elt F) (Rect.unit (s := S16) ![6] S1.size inb_S16_S1_6).toLoadRect xt0 (Shape.Idx.first (numel1_S1.symm ▸ Nat.one_pos)))) (k0_hw8 : k0_chk8 (tbM0_0.view.readAt (Elt F) (Rect.unit (s := S16) ![7] S1.size inb_S16_S1_7).toLoadRect xt0 (Shape.Idx.first (numel1_S1.symm ▸ Nat.one_pos)))) (k0_hw9 : k0_chk9 (tbM0_0.view.readAt (Elt F) (Rect.unit (s := S16) ![8] S1.size inb_S16_S1_8).toLoadRect xt0 (Shape.Idx.first (numel1_S1.symm ▸ Nat.one_pos)))) (k0_hw10 : k0_chk10 (tbM0_0.view.readAt (Elt F) (Rect.unit (s := S16) ![9] S1.size inb_S16_S1_9).toLoadRect xt0 (Shape.Idx.first (numel1_S1.symm ▸ Nat.one_pos)))) (k0_hw11 : k0_chk11 (tbM0_0.view.readAt (Elt F) (Rect.unit (s := S16) ![10] S1.size inb_S16_S1_10).toLoadRect xt0 (Shape.Idx.first (numel1_S1.symm ▸ Nat.one_pos)))) (k0_hw12 : k0_chk12 (tbM0_0.view.readAt (Elt F) (Rect.unit (s := S16) ![11] S1.size inb_S16_S1_11).toLoadRect xt0 (Shape.Idx.first (numel1_S1.symm ▸ Nat.one_pos)))) (k0_hw13 : k0_chk13 (tbM0_0.view.readAt (Elt F) (Rect.unit (s := S16) ![12] S1.size inb_S16_S1_12).toLoadRect xt0 (Shape.Idx.first (numel1_S1.symm ▸ Nat.one_pos)))) (k0_hw14 : k0_chk14 (tbM0_0.view.readAt (Elt F) (Rect.unit (s := S16) ![13] S1.size inb_S16_S1_13).toLoadRect xt0 (Shape.Idx.first (numel1_S1.symm ▸ Nat.one_pos)))) (k0_hw15 : k0_chk15 (tbM0_0.view.readAt (Elt F) (Rect.unit (s := S16) ![14] S1.size inb_S16_S1_14).toLoadRect xt0 (Shape.Idx.first (numel1_S1.symm ▸ Nat.one_pos)))) (k0_hw16 : k0_chk16 (tbM0_0.view.readAt (Elt F) (Rect.unit (s := S16) ![15] S1.size inb_S16_S1_15).toLoadRect xt0 (Shape.Idx.first (numel1_S1.symm ▸ Nat.one_pos)))) :
    out0_A_0 c i arg3 harg3 arg4 harg4 xt0 fh0 k0_hw1 k0_hw2 k0_hw3 k0_hw4 k0_hw5 k0_hw6 k0_hw7 k0_hw8 k0_hw9 k0_hw10 k0_hw11 k0_hw12 k0_hw13 k0_hw14 k0_hw15 k0_hw16 = Gk (xt0 : S16.Idx → BitVec 32) (fh0 : S16x4096x1024.Idx → Elt F .f32) := by
  unfold out0_A_0
  rw [View.read_writes_eq_canon _ _ _ (cover0_A_0 c i arg3 harg3 arg4 harg4 xt0 fh0 k0_hw1 k0_hw2 k0_hw3 k0_hw4 k0_hw5 k0_hw6 k0_hw7 k0_hw8 k0_hw9 k0_hw10 k0_hw11 k0_hw12 k0_hw13 k0_hw14 k0_hw15 k0_hw16)]
  unfold kernelRun0_A
  dsimp only
  sl_unfold_run_names
  rw [View.canon_unit_zero hz2]
  rw [View.readCov_eq_canon']
  funext y
  refine (View.canon_apply_of_pieces (Gk (xt0 : S16.Idx → BitVec 32) (fh0 : S16x4096x1024.Idx → Elt F .f32)) _ ?_ _
    (View.cover_of_tiledL (s := S16x1024) _ S1x1024.size (by sl_kernel_rfl) _)).trans ?_
  · intro p hp x
    simp only [List.mem_cons, List.mem_nil_iff, or_false] at hp
    rcases hp with rfl | rfl | rfl | rfl | rfl | rfl | rfl | rfl | rfl | rfl | rfl | rfl | rfl | rfl | rfl | rfl
    · dsimp only
      refine row_piece c xt0 fh0 ⟨15, by omega⟩ _ (word_read c xt0 ⟨15, by omega⟩ ![15] rfl) (Nat.le_of_succ_le_succ (k0_hw16 1)) _ ?_ ?_ ?_ (hs := fun _ => rfl) _ ?_ ?_ x <;> rfl
    · dsimp only
      refine row_piece c xt0 fh0 ⟨14, by omega⟩ _ (word_read c xt0 ⟨14, by omega⟩ ![14] rfl) (Nat.le_of_succ_le_succ (k0_hw15.1 1)) _ ?_ ?_ ?_ (hs := fun _ => rfl) _ ?_ ?_ x <;> rfl
    · dsimp only
      refine row_piece c xt0 fh0 ⟨13, by omega⟩ _ (word_read c xt0 ⟨13, by omega⟩ ![13] rfl) (Nat.le_of_succ_le_succ (k0_hw14.1 1)) _ ?_ ?_ ?_ (hs := fun _ => rfl) _ ?_ ?_ x <;> rfl
    · dsimp only
      refine row_piece c xt0 fh0 ⟨12, by omega⟩ _ (word_read c xt0 ⟨12, by omega⟩ ![12] rfl) (Nat.le_of_succ_le_succ (k0_hw13.1 1)) _ ?_ ?_ ?_ (hs := fun _ => rfl) _ ?_ ?_ x <;> rfl
    · dsimp only
      refine row_piece c xt0 fh0 ⟨11, by omega⟩ _ (word_read c xt0 ⟨11, by omega⟩ ![11] rfl) (Nat.le_of_succ_le_succ (k0_hw12.1 1)) _ ?_ ?_ ?_ (hs := fun _ => rfl) _ ?_ ?_ x <;> rfl
    · dsimp only
      refine row_piece c xt0 fh0 ⟨10, by omega⟩ _ (word_read c xt0 ⟨10, by omega⟩ ![10] rfl) (Nat.le_of_succ_le_succ (k0_hw11.1 1)) _ ?_ ?_ ?_ (hs := fun _ => rfl) _ ?_ ?_ x <;> rfl
    · dsimp only
      refine row_piece c xt0 fh0 ⟨9, by omega⟩ _ (word_read c xt0 ⟨9, by omega⟩ ![9] rfl) (Nat.le_of_succ_le_succ (k0_hw10.1 1)) _ ?_ ?_ ?_ (hs := fun _ => rfl) _ ?_ ?_ x <;> rfl
    · dsimp only
      refine row_piece c xt0 fh0 ⟨8, by omega⟩ _ (word_read c xt0 ⟨8, by omega⟩ ![8] rfl) (Nat.le_of_succ_le_succ (k0_hw9.1 1)) _ ?_ ?_ ?_ (hs := fun _ => rfl) _ ?_ ?_ x <;> rfl
    · dsimp only
      refine row_piece c xt0 fh0 ⟨7, by omega⟩ _ (word_read c xt0 ⟨7, by omega⟩ ![7] rfl) (Nat.le_of_succ_le_succ (k0_hw8.1 1)) _ ?_ ?_ ?_ (hs := fun _ => rfl) _ ?_ ?_ x <;> rfl
    · dsimp only
      refine row_piece c xt0 fh0 ⟨6, by omega⟩ _ (word_read c xt0 ⟨6, by omega⟩ ![6] rfl) (Nat.le_of_succ_le_succ (k0_hw7.1 1)) _ ?_ ?_ ?_ (hs := fun _ => rfl) _ ?_ ?_ x <;> rfl
    · dsimp only
      refine row_piece c xt0 fh0 ⟨5, by omega⟩ _ (word_read c xt0 ⟨5, by omega⟩ ![5] rfl) (Nat.le_of_succ_le_succ (k0_hw6.1 1)) _ ?_ ?_ ?_ (hs := fun _ => rfl) _ ?_ ?_ x <;> rfl
    · dsimp only
      refine row_piece c xt0 fh0 ⟨4, by omega⟩ _ (word_read c xt0 ⟨4, by omega⟩ ![4] rfl) (Nat.le_of_succ_le_succ (k0_hw5.1 1)) _ ?_ ?_ ?_ (hs := fun _ => rfl) _ ?_ ?_ x <;> rfl
    · dsimp only
      refine row_piece c xt0 fh0 ⟨3, by omega⟩ _ (word_read c xt0 ⟨3, by omega⟩ ![3] rfl) (Nat.le_of_succ_le_succ (k0_hw4.1 1)) _ ?_ ?_ ?_ (hs := fun _ => rfl) _ ?_ ?_ x <;> rfl
    · dsimp only
      refine row_piece c xt0 fh0 ⟨2, by omega⟩ _ (word_read c xt0 ⟨2, by omega⟩ ![2] rfl) (Nat.le_of_succ_le_succ (k0_hw3.1 1)) _ ?_ ?_ ?_ (hs := fun _ => rfl) _ ?_ ?_ x <;> rfl
    · dsimp only
      refine row_piece c xt0 fh0 ⟨1, by omega⟩ _ (word_read c xt0 ⟨1, by omega⟩ ![1] rfl) (Nat.le_of_succ_le_succ (k0_hw2.1 1)) _ ?_ ?_ ?_ (hs := fun _ => rfl) _ ?_ ?_ x <;> rfl
    · dsimp only
      refine row_piece c xt0 fh0 ⟨0, by omega⟩ _ (word_read c xt0 ⟨0, by omega⟩ ![0] rfl) (Nat.le_of_succ_le_succ (k0_hw1.1 1)) _ ?_ ?_ ?_ (hs := fun _ => rfl) _ ?_ ?_ x <;> rfl
  · congr 1
    funext a
    apply Fin.ext
    match a with
    | ⟨0, _⟩ => show 0 + 1 * (y 0).val = (y 0).val; omega
    | ⟨1, _⟩ => show 0 + 1 * (y 1).val = (y 1).val; omega

variable (m : (ℓ : Loc nD τ sig) → Buf (Elt F) ℓ) (ρ : Dev nD → PrngReg)

/-- At the launch's point the body leaves Gk of the table and the hidden states the region was entered with. -/
theorem outs_eq (c : Dev nD) (t : Fin (cfgM m (ok m)).N) :
    outsAt0 m (ok m) (hyps m) c t = Gk (tbl m 0 : S16.Idx → BitVec 32) (V m c main_arg0 : S16x4096x1024.Idx → Elt F .f32) := by
  unfold outsAt0
  exact out_eq c (grid0.coords t) (ms0_0 m (ok m) t) (hs0_0 m (ok m) t) scM0_0 (Memref.isWhole_whole _) (tbl m 0) (V m c main_arg0) (Hyps.c0 (hyps m) c t) (Hyps.c1 (hyps m) c t) (Hyps.c2 (hyps m) c t) (Hyps.c3 (hyps m) c t) (Hyps.c4 (hyps m) c t) (Hyps.c5 (hyps m) c t) (Hyps.c6 (hyps m) c t) (Hyps.c7 (hyps m) c t) (Hyps.c8 (hyps m) c t) (Hyps.c9 (hyps m) c t) (Hyps.c10 (hyps m) c t) (Hyps.c11 (hyps m) c t) (Hyps.c12 (hyps m) c t) (Hyps.c13 (hyps m) c t) (Hyps.c14 (hyps m) c t) (Hyps.c15 (hyps m) c t)

/-! ## From the block to the result array -/

/-- The output window's block at the launch's point is the whole result array: unit strides, zero offsets (the index map
    is the constant (0, 0)). -/
theorem rect_facts (t : Fin (cfgM m (ok m)).N) (a : Fin ((cfgM m (ok m)).win 0).shape.rank) :
    (((cfgM m (ok m)).win 0).rect t).stride a = 1 ∧ (((cfgM m (ok m)).win 0).rect t).off a = 0 :=
  ⟨rfl, by match a with | ⟨0, _⟩ => rfl | ⟨1, _⟩ => rfl⟩

/-- So the block's index j sits at index j of the array, -/
theorem blk_emb (t : Fin (cfgM m (ok m)).N) (j : S16x1024.Idx) : (((cfgM m (ok m)).win 0).blk t).view.emb j = j := by
  funext a
  apply Fin.ext
  have h1 := (rect_facts m t a).1
  have h2 := (rect_facts m t a).2
  show (((cfgM m (ok m)).win 0).rect t).off a + (((cfgM m (ok m)).win 0).rect t).stride a * (j a).val = (j a).val
  rw [h1, h2]; omega

/-- and a function of the result array's index read back through the block is the function itself. -/
theorem blk_read (t : Fin (cfgM m (ok m)).N) (f : S16x1024.Idx → Elt F .f32) (j : S16x1024.Idx) :
    (((cfgM m (ok m)).win 0).blk t).view.read (Elt F) f j = f j :=
  (cast_eq _ _).trans (congrArg f (blk_emb m t j))

/-- What the launch's point writes back is Gk read through the block; -/
theorem flushed_eq (c : Dev nD) (t : Fin (cfgM m (ok m)).N) (_ : ((cfgM m (ok m)).win 0).flush t = true) :
    (dats m (ok m) (hyps m) 0 c).flushed 0 t
      = (((cfgM m (ok m)).win 0).blk t).view.read (Elt F) (Gk (tbl m 0 : S16.Idx → BitVec 32) (V m c main_arg0 : S16x4096x1024.Idx → Elt F .f32)) := by
  show ((cfgM m (ok m)).win 0).cut ((cfgM m (ok m)).grid.coords t) ((dats m (ok m) (hyps m) 0 c).after 0 t) = _
  rw [after0_0, outs_eq m c t]
  funext j
  exact (blk_read m t _ j).symm

/-- the block covers the whole array, -/
theorem cover (i : S16x1024.Idx) :
    ∃ t : Fin (cfgM m (ok m)).N, ((cfgM m (ok m)).win 0).flush t = true ∧ i ∈ (((cfgM m (ok m)).win 0).blk t).view.set := by
  obtain ⟨t, -⟩ : ∃ t : Fin (cfgM m (ok m)).N, True := ⟨⟨0, Nat.one_pos⟩, trivial⟩
  refine ⟨t, flush0_0 (adm m (ok m)) t, ?_⟩
  have h := View.emb_mem_set (v := (((cfgM m (ok m)).win 0).blk t).view) i
  exact (blk_emb m t i) ▸ h

/-- so the result array ends at Gk. -/
theorem final (c : Dev nD) :
    (dats m (ok m) (hyps m) 0 c).arrAt 0 (cfgM m (ok m)).N
      = Gk (tbl m 0 : S16.Idx → BitVec 32) (V m c main_arg0 : S16x4096x1024.Idx → Elt F .f32) :=
  (dats m (ok m) (hyps m) 0 c).arrAt_eq_of_cover 0 _ (flushed_eq m c) (cover m)

/-! ## At the wrapper's table, Gk is the specification's G -/

/-- The row Gk reads for sequence b at the wrapper's table is the specification's row. -/
theorem row_tbl (b : Fin 16) :
    (⟨min ((tbl m 0 : S16.Idx → BitVec 32) (ix1 b)).toNat 4095, by omega⟩ : Fin 4096) = row (maskOf m) b := by
  apply Fin.ext
  unfold row
  dsimp only
  rw [tbl_apply]
  have := rowWord_le (maskOf m) b
  omega

theorem Gk_tbl (c : Dev nD) :
    Gk (tbl m 0 : S16.Idx → BitVec 32) (V m c main_arg0 : S16x4096x1024.Idx → Elt F .f32)
      = G (m ((c.tc : Thread nD τ).loc main_arg0)) (m ((c.tc : Thread nD τ).loc main_arg1)) := by
  obtain rfl : c = 0 := Subsingleton.elim _ _
  have hV := V_main_arg0 m (0 : Dev nD)
  funext j
  obtain ⟨b, h, rfl⟩ : ∃ (b : Fin 16) (h : Fin 1024), j = ix2 b h := ⟨j 0, j 1, eq_ix2 j⟩
  show (V m 0 main_arg0 : S16x4096x1024.Idx → Elt F .f32) (ix3 b ⟨min ((tbl m 0 : S16.Idx → BitVec 32) (ix1 b)).toNat 4095, by omega⟩ h)
    = (m (((0 : Dev nD).tc : Thread nD τ).loc main_arg0) : S16x4096x1024.Idx → Elt F .f32) (ix3 b (row (maskOf m) b) h)
  rw [row_tbl m b, hV]

/-! ## The kernel's run with its result named -/

/-- Every weakly fair execution of the kernel's program ends with the result array at G of the two arguments and the
    arguments unchanged — for every launch memory: the wrapper's clamp keeps every row copy inside the hidden states. -/
theorem run_value : θ_run defs (onTc (τ := τ) (main (F := F))) ⟨m, fun _ => 0, ρ⟩ (fun r => ∀ c : Dev nD,
      r.2.mem ((c.tc : Thread nD τ).loc main_v4) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have H := run_main m ρ (ok m) (hyps m)
  refine (θ_run defs _ _).mono (fun _ hq c => ?_) H
  exact ⟨(((hq c).1 0).trans (final m c)).trans (Gk_tbl m c),
    ((hq c).2 main_arg0 (by decide : main_arg0 ∈ Pipeline.restRefs sig spec0)).trans (V_main_arg0 m c),
    ((hq c).2 main_arg1 (by decide : main_arg1 ∈ Pipeline.restRefs sig spec0)).trans (V_main_arg1 m c)⟩

end Cert.KernelIdeal.KernelValue

end
-- ==== Proof.PreFacts.lean ====
/-
  FROM THE PRECONDITION TO THE COUNTS. The precondition says: every hidden state is finite, every mask entry is 0 or 1, and
  every sequence's word-level sum of the mask is at least 1 (signed). A row of 4096 words each 0 or 1 sums, without wrapping,
  to at most 4096; so every count lies in [1, 4096].
-/
import proofs.«420670_j87883620811288_3_alg».proof.Pre_finite_inputs
import proofs.«420670_j87883620811288_3_alg».proof.Proof.Spec
import Idealize.ShloMosaic.Lib.ReduceAll
import Idealize.ShloMosaic.Lib.Affine
import Idealize.ShloMosaic.Lib.StableHlo.Predicate

namespace Cert.LastToken

open Idealize.ShloMosaic Idealize.ShloMosaic.ValueIdx

/-- A word that equals 0 or equals 1 (the two comparisons joined by "or") has value at most 1. -/
theorem toNat_le_one_of_bit (w : BitVec 32)
    (h : IntOp.ori (IntOp.cmpi .eq w 0#32) (IntOp.cmpi .eq w 1#32) = 1#1) : w.toNat ≤ 1 := by
  rcases IntOp.ori_eq_one.1 h with h | h
  · rw [StableHlo.Predicate.cmpi_eq_iff.1 h]; decide
  · rw [StableHlo.Predicate.cmpi_eq_iff.1 h]; decide

/-- Under the precondition every sequence has between 1 and 4096 valid tokens. -/
theorem inRange_of_pre {F : FTy → Type} [FloatOps F] [Cert.Pre_finite_inputs.Facts] (x : FVec F SH .f32) (mask : IVec SM 32)
    (h : Cert.Pre_finite_inputs.fn (F := F) x mask = fun _ => 1#1) : InRange mask := by
  haveI : Subsingleton Cert.Pre_finite_inputs.S_.Idx := ⟨fun a b => funext fun d => d.elim0⟩
  -- the scalar result is the conjunction of three "all"s; the second and third are about the mask
  have e := congrFun h ix0
  dsimp only [Cert.Pre_finite_inputs.fn] at e
  simp only [andi] at e
  rw [IntOp.andi_eq_one, IntOp.andi_eq_one] at e
  obtain ⟨⟨-, e2⟩, e3⟩ := e
  -- every mask entry is 0 or 1
  have hbit : ∀ i, (mask i).toNat ≤ 1 := fun i => by
    have hi := Host.reduce_andi_all _ _ _ _ _ e2 i
    simp only [ori, cmpi, broadcastInDim, constantI] at hi
    exact toNat_le_one_of_bit _ hi
  intro b
  -- so a row's sum does not wrap and is at most the row's length
  have hle : (count mask (ix1 b)).toNat ≤ 4096 := by
    unfold count
    exact Cert.LibWords.toNat_reduce_cols_le (n := 16) (m := 4096) (by norm_num) mask hbit hr h0 (ix1 b)
  -- the third "all" compares, signed, the same row sum with 1; below 2^31 that is the comparison of the values
  have hge := Host.reduce_andi_all _ _ _ _ _ e3 (ix1 b)
  simp only [cmpi, broadcastInDim, constantI] at hge
  have hge' : IntOp.cmpi .sge (count mask (ix1 b)) 1#32 = 1#1 := hge
  rw [StableHlo.Predicate.sge_iff_toNat (by omega) (by decide)] at hge'
  exact ⟨hge', hle⟩

end Cert.LastToken
-- ==== Proof.RefValue.lean ====
/-
  THE REFERENCE'S RESULT. The reference gathers, for sequence b, row count b − 1 of x (jnp's take_along_axis: a negative
  index wrapped once by 4096, the result NaN where the wrapped index is outside [0, 4095], the gather itself clamping its
  start index). With every count in [1, 4096] the index count b − 1 is in [0, 4095]: no wrap, no fill, no clamp, and
  the result is G.
-/
import proofs.«420670_j87883620811288_3_alg».proof.Defs
import proofs.«420670_j87883620811288_3_alg».proof.Proof.Gen.ReferenceIdeal
import proofs.«420670_j87883620811288_3_alg».proof.Proof.ReferenceIdealRun
import proofs.«420670_j87883620811288_3_alg».proof.Proof.ReferenceIdealRead
import proofs.«420670_j87883620811288_3_alg».proof.Proof.Spec
import Idealize.ShloMosaic.Lib.StableHlo.Predicate

noncomputable section

namespace Cert.ReferenceIdeal.RefValue

open Cert.ReferenceIdeal Cert.LastToken
open Idealize.ShloMosaic Idealize.ShloMosaic.TcCoe Idealize.ShloMosaic.ValueIdx Idealize.SL.Sem

open Idealize.ShloMosaic.StableHlo
/-! ## Words in [0, 4095] -/

theorem slt_zero_ne (u : BitVec 32) (hu : u.toNat ≤ 4095) : ¬ IntOp.cmpi .slt u 0#32 = 1#1 := by
  rw [Predicate.slt_iff_toNat (by omega) (by decide)]
  exact Nat.not_lt_zero _

theorem sge_zero (u : BitVec 32) (hu : u.toNat ≤ 4095) : IntOp.cmpi .sge u 0#32 = 1#1 :=
  (Predicate.sge_iff_toNat (by omega) (by decide)).2 (Nat.zero_le _)

theorem sle_top (u : BitVec 32) (hu : u.toNat ≤ 4095) : IntOp.cmpi .sle u 4095#32 = 1#1 :=
  (Predicate.sle_iff_toNat (by omega) (by decide)).2 hu

theorem toInt_toNat (u : BitVec 32) (hu : u.toNat ≤ 4095) : u.toInt.toNat = u.toNat := by
  rw [Predicate.toInt_eq_toNat_of_lt (by omega)]
  exact Int.toNat_natCast _

/-- A select whose condition is not set takes its second branch. -/
theorem select_not {α : Type} (c : BitVec 1) (a b : α) (h : ¬ c = 1#1) : Scalar.select c a b = b := if_neg h

/-- THE GATHER READ AT (b, 0, h): axis 0 is the batch axis, axis 1 is collapsed and starts at sequence b's start index
    (read signed, clamped into [0, 4095]), axis 2 is the offset axis. -/
theorem gather_row {α : Type} (x : S16x4096x1024.Idx → α) (idx : IVec S16x1x1 32) (b : Fin 16) (h : Fin 1024) :
    Host.gather gather_S16x4096x1024_S16x1x1_S16x1x1024_2_1_0_0_1_2_111024 x idx (ix3 b 0 h)
      = x (ix3 b ⟨min (idx (ix3 b 0 0)).toInt.toNat 4095, Nat.lt_succ_of_le (Nat.min_le_right _ _)⟩ h) := by
  unfold Host.gather; congr 1; funext a; apply Fin.ext
  fin_cases a <;>
    simp [GatherDims.operandIdx, GatherDims.start, GatherDims.offCoord, GatherDims.batchCoord,
      gather_S16x4096x1024_S16x1x1_S16x1x1024_2_1_0_0_1_2_111024, GatherDims.sKept, Shape.kept]
  · rfl
  · refine congrArg (fun k => min (idx k).toInt.toNat 4095) ?_
    funext k; apply Fin.ext; fin_cases k <;> rfl
  · rfl

/-! ## The reference's stages read at an index -/

open Cert.ReferenceIdeal.ReadP

/-- A reduce does not depend on which proofs of its shape facts it is given. -/
theorem reduce_proofs {α : Type} {s t u : Shape} {axes : List (Fin s.rank)} (f : α → α → α) (x : s.Idx → α) (init : u.Idx → α)
    (h h' : s.ReducesTo axes t) (hu hu' : 0 < u.numel) : Host.reduce f x init h hu = Host.reduce f x init h' hu' := rfl

/-- The reference's row sum is the specification's count. -/
theorem v0_eq_count (x1 : (⟨S16x4096, .i32⟩ : BufTy).Contents (Elt Ideal)) : val_main_v0 (F := Ideal) x1 = LastToken.count x1 := by
  unfold val_main_v0 val_main_c LastToken.count
  exact reduce_proofs _ _ _ _ _ _ _

/-- Every index of a [16, 1, 1] array is (b, 0, 0). -/
theorem idx_eq (i : S16x1x1.Idx) : ∃ b : Fin 16, i = ix3 b 0 0 :=
  ⟨i 0, funext fun a => match a with
    | ⟨0, _⟩ => rfl
    | ⟨1, _⟩ => Fin.ext (Nat.lt_one_iff.1 (i 1).isLt)
    | ⟨2, _⟩ => Fin.ext (Nat.lt_one_iff.1 (i 2).isLt)⟩

/-- The broadcast of the per-sequence index over the two unit axes reads sequence b's entry. -/
theorem idx3_eq (b : Fin 16) : idx_main_v3 (ix3 b 0 0) = ix1 b := by
  funext a; match a with | ⟨0, _⟩ => rfl

/-- The index handed to take_along_axis for sequence b is count b − 1, -/
theorem v3_apply (x1 : (⟨S16x4096, .i32⟩ : BufTy).Contents (Elt Ideal)) (b : Fin 16) :
    val_main_v3 (F := Ideal) x1 (ix3 b 0 0) = IntOp.subi (LastToken.count x1 (ix1 b)) 1#32 := by
  rw [val_main_v3_apply, val_main_v2_apply, val_main_v1_apply, val_main_c_0_apply, v0_eq_count, idx3_eq]

/-- a word in [0, 4095] when the count is in range. -/
theorem v3_le (x1 : (⟨S16x4096, .i32⟩ : BufTy).Contents (Elt Ideal)) (hx : InRange x1) (b : Fin 16) :
    (val_main_v3 (F := Ideal) x1 (ix3 b 0 0)).toNat ≤ 4095 := by
  rw [v3_apply, sub_one_toNat hx]
  have := (hx b).2
  omega

/-- So the wrap of a negative index is not taken: the start index is count b − 1, -/
theorem v4_apply (x1 : (⟨S16x4096, .i32⟩ : BufTy).Contents (Elt Ideal)) (hx : InRange x1) (b : Fin 16) :
    val_main_call0_v4 (F := Ideal) x1 (ix3 b 0 0) = val_main_v3 (F := Ideal) x1 (ix3 b 0 0) := by
  rw [val_main_call0_v4_apply, val_main_call0_v1_apply, val_main_call0_v0_apply, val_main_call0_c_apply]
  exact select_not _ _ _ (slt_zero_ne _ (v3_le x1 hx b))

/-- and it passes the bounds test 0 ≤ · ≤ 4095. -/
theorem v10_apply (x1 : (⟨S16x4096, .i32⟩ : BufTy).Contents (Elt Ideal)) (hx : InRange x1) (i : S16x1x1.Idx) :
    val_main_call0_v10 (F := Ideal) x1 i = 1#1 := by
  obtain ⟨b, rfl⟩ := idx_eq i
  rw [val_main_call0_v10_apply, val_main_call0_v6_apply, val_main_call0_v9_apply, val_main_call0_v5_apply,
    val_main_call0_c_2_apply, val_main_call0_v8_apply, val_main_call0_v7_apply, val_main_call0_c_1_apply,
    v4_apply x1 hx, sge_zero _ (v3_le x1 hx b), sle_top _ (v3_le x1 hx b)]
  rfl

/-- A left fold by "and" from 1 over words that are all 1 is 1. -/
theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_one f hf l

/-- So the and-reduce of the test over its one-element axis is 1 everywhere. -/
theorem v11_apply (x1 : (⟨S16x4096, .i32⟩ : BufTy).Contents (Elt Ideal)) (hx : InRange x1) (k : S16x1.Idx) :
    val_main_call0_v11 (F := Ideal) x1 k = 1#1 := by
  unfold val_main_call0_v11
  rw [Host.reduce_eq_foldl]
  exact foldl_andi_one _ (v10_apply x1 hx) _

/-- The reshape [16, 1, 1024] → [16, 1024] reads (b, h) at (b, 0, h). -/
theorem idx5_eq (b : Fin 16) (h : Fin 1024) : idx_main_v5 (ix2 b h) = ix3 b 0 h := by
  have hb := b.isLt
  have hh := h.isLt
  funext a
  match a with
  | ⟨0, _⟩ => exact Fin.ext (by show (b.val * 1024 + h.val) / 1024 = b.val; omega)
  | ⟨1, _⟩ => rfl
  | ⟨2, _⟩ => exact Fin.ext (by show (b.val * 1024 + h.val) % 1024 = h.val; omega)

/-- G at (b, h). -/
theorem G_apply {α : Type} (x : SH.Idx → α) (mask : IVec SM 32) (b : Fin 16) (h : Fin 1024) :
    G x mask (ix2 b h) = x (ix3 b (row mask b) h) := rfl

/-- THE REFERENCE'S RESULT, as a function of its two arguments, is G when every count is in range. -/
theorem val_eq_G (x0 : (⟨S16x4096x1024, .f32⟩ : BufTy).Contents (Elt Ideal)) (x1 : (⟨S16x4096, .i32⟩ : BufTy).Contents (Elt Ideal))
    (hx : InRange x1) : val_main_v5 (F := Ideal) x0 x1 = G x0 x1 := by
  funext j
  obtain ⟨b, h, rfl⟩ : ∃ (b : Fin 16) (h : Fin 1024), j = ix2 b h := ⟨j 0, j 1, eq_ix2 j⟩
  rw [val_main_v5_apply, idx5_eq, val_main_v4_apply, val_main_call0_v13_apply, v11_apply x1 hx, select_one, G_apply]
  unfold val_main_call0_v12
  rw [gather_row, v4_apply x1 hx, v3_apply]
  refine congrArg (fun r => x0 (ix3 b r h)) (Fin.ext ?_)
  show min (IntOp.subi (LastToken.count x1 (ix1 b)) 1#32).toInt.toNat 4095 = (row x1 b).val
  have hle : (IntOp.subi (LastToken.count x1 (ix1 b)) 1#32).toNat ≤ 4095 := by
    rw [sub_one_toNat hx]; have := (hx b).2; omega
  rw [row_val hx, toInt_toNat _ hle, sub_one_toNat hx]
  have := (hx b).2
  omega

/-- The reference's run with its result named: with every count in range the result array ends at `G`. -/
theorem run_value (m : (ℓ : Loc nD τ sig) → Buf (Elt Ideal) ℓ) (ρ : Dev nD → PrngReg)
    (hin : ∀ c : Dev nD, InRange (m ((c.tc : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v5) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, (h c).2.1, (h c).2.2⟩) (Cert.ReferenceIdeal.ValueP.run (F := Ideal) m ρ)
  rw [(h c).1, Cert.ReferenceIdeal.ReadP.val_main_v5_eq]
  exact val_eq_G _ _ (hin c)

end Cert.ReferenceIdeal.RefValue

end
-- ==== Proof.lean ====
/-
  THE CERTIFICATE: the kernel gathers, for each of 16 sequences, the hidden state of the sequence's last valid token.

  Arguments: hidden states x : [16, 4096, 1024] and an attention mask : [16, 4096] of 32-bit words. Both programs compute
  count b, the word-level sum of the mask's row b. The kernel's wrapper clamps count b − 1 into [0, 4095] and the kernel
  copies row (b, that index) of x to row b of the result by sixteen row copies issued together and waited for together.
  The reference gathers at count b − 1 itself (a negative index wrapped once by 4096, NaN outside [0, 4095]).

  The precondition says every hidden state is finite (never used), every mask entry is 0 or 1, and every row's sum is at
  least 1; then 1 ≤ count b ≤ 4096 (PreFacts), the clamp does nothing, the wrap and the fill are not taken, and both
  results are G x mask (b, h) = x (b, count b − 1, h) (Spec; KernelIdealValue for the kernel, RefValue for the reference).

  The three frames need nothing of the precondition: the clamp keeps every row copy inside x for every mask (KernelHyps,
  KernelIdealHyps), and the reference is a host program. The idealization rewrote nothing, so `preserves` is `True`.
-/
import proofs.«420670_j87883620811288_3_alg».proof.Defs
import proofs.«420670_j87883620811288_3_alg».proof.Proof.Gen.Kernel
import proofs.«420670_j87883620811288_3_alg».proof.Proof.Gen.KernelIdeal
import proofs.«420670_j87883620811288_3_alg».proof.Proof.Gen.ReferenceIdeal
import proofs.«420670_j87883620811288_3_alg».proof.Proof.Gen.Pre_finite_inputs
import proofs.«420670_j87883620811288_3_alg».proof.Proof.KernelHyps
import proofs.«420670_j87883620811288_3_alg».proof.Proof.KernelIdealValue
import proofs.«420670_j87883620811288_3_alg».proof.Proof.PreFacts
import proofs.«420670_j87883620811288_3_alg».proof.Proof.RefValue
import Idealize.ShloMosaic.Adequacy
import Idealize.ShloMosaic.Init

noncomputable section

namespace Cert.Proof

open Idealize.ShloMosaic Idealize.SL.Sem Cert.LastToken

/-- The word-level kernel runs and leaves its arguments as they were, for every launch memory. -/
theorem frame_kernel : Cert.frame_Kernel := fun m ρ _ =>
  Cert.Kernel.GenP.frame m ρ (Cert.Kernel.HypsOfPre.ok m) (Cert.Kernel.HypsOfPre.hyps m)

/-- So does the idealized kernel, -/
theorem frame_kernelIdeal : Cert.frame_KernelIdeal := fun m ρ _ =>
  Cert.KernelIdeal.GenP.frame m ρ (Cert.KernelIdeal.HypsOfPre.ok m) (Cert.KernelIdeal.HypsOfPre.hyps m)

/-- and the reference: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end at G of the arguments: the kernel for every memory, the
    reference because the precondition puts every count in [1, 4096]. -/
theorem algebraic : Cert.algebraic_KernelIdeal_ReferenceIdeal := by
  intro m ρ m' ρ' hpre hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run_value (F := Ideal) m ρ, ?_⟩
  have hin : ∀ c : Dev Cert.ReferenceIdeal.nD,
      InRange (m' ((c.tc : Thread Cert.ReferenceIdeal.nD Cert.ReferenceIdeal.τ).loc Cert.ReferenceIdeal.main_arg1)) := fun c => by
    rw [(hagree c).2]
    exact inRange_of_pre _ _ (hpre c)
  refine (θ_run Cert.ReferenceIdeal.defs _ _).mono (fun _ h c => ⟨?_, (h c).2⟩) (Cert.ReferenceIdeal.RefValue.run_value m' ρ' hin)
  rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
